-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v70) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S625000x3 : Shape := ⟨2, ![625000, 3]⟩
abbrev S128x256 : Shape := ⟨2, ![128, 256]⟩
abbrev S128 : Shape := ⟨1, ![128]⟩
abbrev S128x128 : Shape := ⟨2, ![128, 128]⟩
abbrev S384x128 : Shape := ⟨2, ![384, 128]⟩
abbrev S384 : Shape := ⟨1, ![384]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S384x128 : S_.BroadcastsInDim S384x128 (![] : Fin 0 → Fin S384x128.rank)
  reducesTo_S384x128_S_d0_1 : S384x128.ReducesTo [0, 1] S_
  bcast_S_S384 : S_.BroadcastsInDim S384 (![] : Fin 0 → Fin S384.rank)
  reducesTo_S384_S_d0 : S384.ReducesTo [0] S_

variable [Facts]

def fn_part2 {F : FTy → Type} [FloatOps F] (main_arg8 : FVec F S384x128 .f32) (main_arg9 : FVec F S384 .f32) (main_v33 : IVec S_ 1) : IVec S_ 1 :=
  let main_v34 : FVec F S384x128 .f32 := Host.absf main_arg8
  let main_cst_12 : FVec F S_ .f32 := constant S_ .f32 0x7F800000#32
  let main_v35 : FVec F S384x128 .f32 := broadcastInDim S384x128 ![] bcast_S_S384x128 main_cst_12
  let main_v36 : IVec S384x128 1 := cmpf .olt main_v34 main_v35
  let main_c_13 : IVec S_ 1 := constantI S_ 1 1#1
  let main_v37 : IVec S_ 1 := (fun x v => Host.reduce IntOp.andi x v reducesTo_S384x128_S_d0_1 h_S_) main_v36 main_c_13
  let main_v38 : IVec S_ 1 := andi main_v33 main_v37
  let main_v39 : FVec F S384 .f32 := Host.absf main_arg9
  let main_cst_14 : FVec F S_ .f32 := constant S_ .f32 0x7F800000#32
  let main_v40 : FVec F S384 .f32 := broadcastInDim S384 ![] bcast_S_S384 main_cst_14
  let main_v41 : IVec S384 1 := cmpf .olt main_v39 main_v40
  let main_c_15 : IVec S_ 1 := constantI S_ 1 1#1
  let main_v42 : IVec S_ 1 := (fun x v => Host.reduce IntOp.andi x v reducesTo_S384_S_d0 h_S_) main_v41 main_c_15
  let main_v43 : IVec S_ 1 := andi main_v38 main_v42
  main_v43

def fn_part1 {F : FTy → Type} [FloatOps F] (main_arg5 : FVec F S128 .f32) (main_arg6 : FVec F S384x128 .f32) (main_arg7 : FVec F S384 .f32) (main_arg8 : FVec F S384x128 .f32) (main_arg9 : FVec F S384 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S384x128 .f32 := Host.absf main_arg6
  let main_cst_8 : FVec F S_ .f32 := constant S_ .f32 0x7F800000#32
  let main_v25 : FVec F S384x128 .f32 := broadcastInDim S384x128 ![] bcast_S_S384x128 main_cst_8
  let main_v26 : IVec S384x128 1 := cmpf .olt main_v24 main_v25
  let main_c_9 : IVec S_ 1 := constantI S_ 1 1#1
  let main_v27 : IVec S_ 1 := (fun x v => Host.reduce IntOp.andi x v reducesTo_S384x128_S_d0_1 h_S_) main_v26 main_c_9
  let main_v28 : IVec S_ 1 := andi main_v23 main_v27
  let main_v29 : FVec F S384 .f32 := Host.absf main_arg7
  let main_cst_10 : FVec F S_ .f32 := constant S_ .f32 0x7F800000#32
  let main_v30 : FVec F S384 .f32 := broadcastInDim S384 ![] bcast_S_S384 main_cst_10
  let main_v31 : IVec S384 1 := cmpf .olt main_v29 main_v30
  let main_c_11 : IVec S_ 1 := constantI S_ 1 1#1
  let main_v32 : IVec S_ 1 := (fun x v => Host.reduce IntOp.andi x v reducesTo_S384_S_d0 h_S_) main_v31 main_c_11
  let main_v33 : IVec S_ 1 := andi main_v28 main_v32
  fn_part2 (F := F) main_arg8 main_arg9 main_v33

def fn {F : FTy → Type} [FloatOps F] (main_arg0 : FVec F S50000x128 .f32) (main_arg1 : IVec S625000x3 32) (main_arg2 : FVec F S128x256 .f32) (main_arg3 : FVec F S128 .f32) (main_arg4 : FVec F S128x128 .f32) (main_arg5 : FVec F S128 .f32) (main_arg6 : FVec F S384x128 .f32) (main_arg7 : FVec F S384 .f32) (main_arg8 : FVec F S384x128 .f32) (main_arg9 : FVec F S384 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x256 .f32 := Host.absf main_arg2
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_v13 main_v16
-- ==== Kernel.lean ====
abbrev S50000x128 : Shape := ⟨2, ![50000, 128]⟩
abbrev S625000x3 : Shape := ⟨2, ![625000, 3]⟩
abbrev S128x256 : Shape := ⟨2, ![128, 256]⟩
abbrev S128 : Shape := ⟨1, ![128]⟩
abbrev S128x128 : Shape := ⟨2, ![128, 128]⟩
abbrev S384x128 : Shape := ⟨2, ![384, 128]⟩
abbrev S384 : Shape := ⟨1, ![384]⟩
abbrev S625000x1 : Shape := ⟨2, ![625000, 1]⟩
abbrev S625000 : Shape := ⟨1, ![625000]⟩
abbrev S_ : Shape := ⟨0, ![]⟩
abbrev S625000x128 : Shape := ⟨2, ![625000, 128]⟩
abbrev S1x128 : Shape := ⟨2, ![1, 128]⟩
abbrev S5000x128 : Shape := ⟨2, ![5000, 128]⟩
abbrev S1x384 : Shape := ⟨2, ![1, 384]⟩
abbrev S2000x128 : Shape := ⟨2, ![2000, 128]⟩
abbrev S128x384 : Shape := ⟨2, ![128, 384]⟩
abbrev S2000x384 : Shape := ⟨2, ![2000, 384]⟩

abbrev nBuf : Space → Nat
  | .hbm => 44
  | .vmem => 21
  | .smem => 0
  | _ => 0

abbrev bufTy : (tb : Table) → Fin (tcTables nBuf tb) → BufTy
  | .hbm, ⟨0, _⟩ => ⟨S50000x128, .f32⟩
  | .hbm, ⟨1, _⟩ => ⟨S625000x3, .i32⟩
  | .hbm, ⟨2, _⟩ => ⟨S128x256, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S384x128, .f32⟩
  | .hbm, ⟨7, _⟩ => ⟨S384, .f32⟩
  | .hbm, ⟨8, _⟩ => ⟨S384x128, .f32⟩
  | .hbm, ⟨9, _⟩ => ⟨S384, .f32⟩
  | .hbm, ⟨10, _⟩ => ⟨S625000x1, .i32⟩
  | .hbm, ⟨11, _⟩ => ⟨S625000, .i32⟩
  | .hbm, ⟨12, _⟩ => ⟨S625000x1, .i32⟩
  | .hbm, ⟨13, _⟩ => ⟨S625000, .i32⟩
  | .hbm, ⟨14, _⟩ => ⟨S_, .i32⟩
  | .hbm, ⟨15, _⟩ => ⟨S625000, .i32⟩
  | .hbm, ⟨16, _⟩ => ⟨S625000, .i1⟩
  | .hbm, ⟨17, _⟩ => ⟨S_, .i32⟩
  | .hbm, ⟨18, _⟩ => ⟨S625000, .i32⟩
  | .hbm, ⟨19, _⟩ => ⟨S625000, .i32⟩
  | .hbm, ⟨20, _⟩ => ⟨S625000, .i32⟩
  | .hbm, ⟨21, _⟩ => ⟨S625000x1, .i32⟩
  | .hbm, ⟨22, _⟩ => ⟨S625000x128, .f32⟩
  | .hbm, ⟨23, _⟩ => ⟨S_, .i32⟩
  | .hbm, ⟨24, _⟩ => ⟨S625000, .i32⟩
  | .hbm, ⟨25, _⟩ => ⟨S625000, .i1⟩
  | .hbm, ⟨26, _⟩ => ⟨S_, .i32⟩
  | .hbm, ⟨27, _⟩ => ⟨S625000, .i32⟩
  | .hbm, ⟨28, _⟩ => ⟨S625000, .i32⟩
  | .hbm, ⟨29, _⟩ => ⟨S625000, .i32⟩
  | .hbm, ⟨30, _⟩ => ⟨S625000x1, .i32⟩
  | .hbm, ⟨31, _⟩ => ⟨S625000x128, .f32⟩
  | .hbm, ⟨32, _⟩ => ⟨S128x128, .f32⟩
  | .hbm, ⟨33, _⟩ => ⟨S128x128, .f32⟩
  | .hbm, ⟨34, _⟩ => ⟨S1x128, .f32⟩
  | .hbm, ⟨35, _⟩ => ⟨S1x128, .f32⟩
  | .hbm, ⟨36, _⟩ => ⟨S625000x128, .f32⟩
  | .hbm, ⟨37, _⟩ => ⟨S_, .f32⟩
  | .hbm, ⟨38, _⟩ => ⟨S50000x128, .f32⟩
  | .hbm, ⟨39, _⟩ => ⟨S625000x1, .i32⟩
  | .hbm, ⟨40, _⟩ => ⟨S50000x128, .f32⟩
  | .hbm, ⟨41, _⟩ => ⟨S1x384, .f32⟩
  | .hbm, ⟨42, _⟩ => ⟨S1x384, .f32⟩
  | .hbm, ⟨43, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S128x128, .f32⟩
  | .local _ .vmem, ⟨8, _⟩ => ⟨S1x128, .f32⟩
  | .local _ .vmem, ⟨9, _⟩ => ⟨S5000x128, .f32⟩
  | .local _ .vmem, ⟨10, _⟩ => ⟨S5000x128, .f32⟩
  | .local _ .vmem, ⟨11, _⟩ => ⟨S2000x128, .f32⟩
  | .local _ .vmem, ⟨12, _⟩ => ⟨S2000x128, .f32⟩
  | .local _ .vmem, ⟨13, _⟩ => ⟨S2000x128, .f32⟩
  | .local _ .vmem, ⟨14, _⟩ => ⟨S2000x128, .f32⟩
  | .local _ .vmem, ⟨15, _⟩ => ⟨S384x128, .f32⟩
  | .local _ .vmem, ⟨16, _⟩ => ⟨S1x384, .f32⟩
  | .local _ .vmem, ⟨17, _⟩ => ⟨S384x128, .f32⟩
  | .local _ .vmem, ⟨18, _⟩ => ⟨S1x384, .f32⟩
  | .local _ .vmem, ⟨19, _⟩ => ⟨S2000x128, .f32⟩
  | .local _ .vmem, ⟨20, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_c_1 : Ref sig .tc := ⟨.hbm, 23, rfl⟩
abbrev main_v11 : Ref sig .tc := ⟨.hbm, 24, rfl⟩
abbrev main_v12 : Ref sig .tc := ⟨.hbm, 25, rfl⟩
abbrev main_c_2 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg6_0 : Ref sig .tc := ⟨.vmem, 19, rfl⟩
abbrev cc1_stg6_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem3_0 : DmaSem sig := 16
abbrev cc1_sem4_0 : DmaSem sig := 17
abbrev cc1_sem5_0 : DmaSem sig := 18
abbrev cc1_sem6_0 : DmaSem sig := 19
abbrev cc1_sem6_1 : DmaSem sig := 20

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S5000x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S384x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x384 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S384x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x384 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S2000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  slices_S625000x3_S625000x1_0_0 : S625000x3.Slices ![0, 0] S625000x1
  shapeCasts_S625000x1_S625000 : S625000x1.ShapeCasts S625000
  slices_S625000x3_S625000x1_0_2 : S625000x3.Slices ![0, 2] S625000x1
  bcast_S_S625000 : S_.BroadcastsInDim S625000 (![] : Fin 0 → Fin S625000.rank)
  bcast_S625000_S625000x1_0 : S625000.BroadcastsInDim S625000x1 (![0] : Fin 1 → Fin S625000x1.rank)
  slices_S128x256_S128x128_0_0 : S128x256.Slices ![0, 0] S128x128
  slices_S128x256_S128x128_0_128 : S128x256.Slices ![0, 128] S128x128
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  transposes_S128x128_p1_0_S128x128 : S128x128.Transposes [1, 0] S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  bcast_S_S50000x128 : S_.BroadcastsInDim S50000x128 (![] : Fin 0 → Fin S50000x128.rank)
  shapeCasts_S384_S1x384 : S384.ShapeCasts S1x384
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S384x128_S384x128_0_0 : ∀ a, (![0, 0] : Fin 2 → Nat) a + S384x128.size a ≤ S384x128.size a
  h_S384x128 : 0 < S384x128.numel
  transposes_S384x128_p1_0_S128x384 : S384x128.Transposes [1, 0] S128x384
  inb_S1x384_S1x384_0_0 : ∀ a, (![0, 0] : Fin 2 → Nat) a + S1x384.size a ≤ S1x384.size a
  h_S1x384 : 0 < S1x384.numel
  shapeCasts_S1x384_S1x384 : S1x384.ShapeCasts S1x384
  broadcasts_S1x384_S2000x384 : S1x384.Broadcasts S2000x384
  slices_S2000x384_o0_0_S2000x128 : S2000x384.Slices ![0, 0] S2000x128
  slices_S2000x384_o0_128_S2000x128 : S2000x384.Slices ![0, 128] S2000x128
  slices_S2000x384_o0_256_S2000x128 : S2000x384.Slices ![0, 256] S2000x128
  gather_S50000x128_S625000x1_S625000x128_1_0_n_n_0_1_1128_wf : GatherDims.WF S50000x128 S625000x1 S625000x128 [1] [0] [] [0] [] 1 ![1, 128]
  dot_S5000x128_S128x128_S5000x128_1_0_0_1_n_n_wf : DotDims.WF S5000x128 S128x128 S5000x128 [1] [0] [0] [1] [] []
  scatter_S50000x128_S625000x1_S625000x128_1_0_0_1_wf : ScatterDims.WF S50000x128 S625000x1 S625000x128 [1] [0] [0] 1
  dot_S2000x128_S128x384_S2000x384_1_0_0_1_n_n_wf : DotDims.WF S2000x128 S128x384 S2000x384 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S625000x128.size a
  hwx0_0 : ∀ i : grid0.Coords, EltTy.bits .f32 = 32 ∨ (Rect.block (s := S625000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S625000x128.size a
  hwx0_1 : ∀ i : grid0.Coords, EltTy.bits .f32 = 32 ∨ (Rect.block (s := S625000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S5000x128.size a ≤ S625000x128.size a
  hwx0_7 : ∀ i : grid0.Coords, EltTy.bits .f32 = 32 ∨ (Rect.block (s := S625000x128) S5000x128.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S50000x128.size a
  hwx1_1 : ∀ i : grid1.Coords, EltTy.bits .f32 = 32 ∨ (Rect.block (s := S50000x128) S2000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S384x128.size a ≤ S384x128.size a
  hwx1_2 : ∀ i : grid1.Coords, EltTy.bits .f32 = 32 ∨ (Rect.block (s := S384x128) S384x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x384.size a ≤ S1x384.size a
  hwx1_3 : ∀ i : grid1.Coords, EltTy.bits .f32 = 32 ∨ (Rect.block (s := S1x384) S1x384.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S384x128.size a ≤ S384x128.size a
  hwx1_4 : ∀ i : grid1.Coords, EltTy.bits .f32 = 32 ∨ (Rect.block (s := S384x128) S384x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x384.size a ≤ S1x384.size a
  hwx1_5 : ∀ i : grid1.Coords, EltTy.bits .f32 = 32 ∨ (Rect.block (s := S1x384) S1x384.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2000x128.size a ≤ S50000x128.size a
  hwx1_6 : ∀ i : grid1.Coords, EltTy.bits .f32 = 32 ∨ (Rect.block (s := S50000x128) S2000x128.size (cc1_transform_6 i) (hinb1_6 i)).WholeWords (EltTy.packing .f32)

variable [Facts₀]

def gather_S50000x128_S625000x1_S625000x128_1_0_n_n_0_1_1128 : GatherDims S50000x128 S625000x1 S625000x128 where
  offsetDims := [1]
  collapsedSliceDims := [0]
  operandBatchingDims := []
  startIndicesBatchingDims := []
  startIndexMap := [0]
  indexVectorDim := 1
  sliceSizes := ![1, 128]
  wf := gather_S50000x128_S625000x1_S625000x128_1_0_n_n_0_1_1128_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def scatter_S50000x128_S625000x1_S625000x128_1_0_0_1 : ScatterDims S50000x128 S625000x1 S625000x128 where
  updateWindowDims := [1]
  insertedWindowDims := [0]
  scatterDimsToOperandDims := [0]
  indexVectorDim := 1
  wf := scatter_S50000x128_S625000x1_S625000x128_1_0_0_1_wf
def dot_S2000x128_S128x384_S2000x384_1_0_0_1_n_n : DotDims S2000x128 S128x384 S2000x384 where
  lhsContracting := [1]
  rhsContracting := [0]
  lhsNonContracting := [0]
  rhsNonContracting := [1]
  lhsBatch := []
  rhsBatch := []
  wf := dot_S2000x128_S128x384_S2000x384_1_0_0_1_n_n_wf

abbrev win0_0 : Pipeline.Window sig grid0 :=
  Pipeline.Window.ofSpec (Memref.whole main_v10) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v17) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v18) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v19) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v20) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v21) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v22) S5000x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v25) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S384x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v26) S1x384.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg8) S384x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v27) S1x384.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v28) S2000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S50000x128 : Shape := ⟨2, ![50000, 128]⟩
abbrev S625000x3 : Shape := ⟨2, ![625000, 3]⟩
abbrev S128x256 : Shape := ⟨2, ![128, 256]⟩
abbrev S128 : Shape := ⟨1, ![128]⟩
abbrev S128x128 : Shape := ⟨2, ![128, 128]⟩
abbrev S384x128 : Shape := ⟨2, ![384, 128]⟩
abbrev S384 : Shape := ⟨1, ![384]⟩
abbrev S625000x1 : Shape := ⟨2, ![625000, 1]⟩
abbrev S625000 : Shape := ⟨1, ![625000]⟩
abbrev S_ : Shape := ⟨0, ![]⟩
abbrev S625000x128 : Shape := ⟨2, ![625000, 128]⟩
abbrev S625000x256 : Shape := ⟨2, ![625000, 256]⟩
abbrev S256x128 : Shape := ⟨2, ![256, 128]⟩
abbrev S1x128 : Shape := ⟨2, ![1, 128]⟩
abbrev S128x384 : Shape := ⟨2, ![128, 384]⟩
abbrev S50000x384 : Shape := ⟨2, ![50000, 384]⟩
abbrev S1x384 : Shape := ⟨2, ![1, 384]⟩

abbrev nBuf : Space → Nat
  | .hbm => 93
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S625000x3, .i32⟩
  | .hbm, ⟨2, _⟩ => ⟨S128x256, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S384x128, .f32⟩
  | .hbm, ⟨7, _⟩ => ⟨S384, .f32⟩
  | .hbm, ⟨8, _⟩ => ⟨S384x128, .f32⟩
  | .hbm, ⟨9, _⟩ => ⟨S384, .f32⟩
  | .hbm, ⟨10, _⟩ => ⟨S625000x1, .i32⟩
  | .hbm, ⟨11, _⟩ => ⟨S625000, .i32⟩
  | .hbm, ⟨12, _⟩ => ⟨S625000x1, .i32⟩
  | .hbm, ⟨13, _⟩ => ⟨S625000, .i32⟩
  | .hbm, ⟨14, _⟩ => ⟨S_, .i32⟩
  | .hbm, ⟨15, _⟩ => ⟨S625000, .i32⟩
  | .hbm, ⟨16, _⟩ => ⟨S625000, .i1⟩
  | .hbm, ⟨17, _⟩ => ⟨S_, .i32⟩
  | .hbm, ⟨18, _⟩ => ⟨S625000, .i32⟩
  | .hbm, ⟨19, _⟩ => ⟨S625000, .i32⟩
  | .hbm, ⟨20, _⟩ => ⟨S625000, .i32⟩
  | .hbm, ⟨21, _⟩ => ⟨S625000x1, .i32⟩
  | .hbm, ⟨22, _⟩ => ⟨S625000x128, .f32⟩
  | .hbm, ⟨23, _⟩ => ⟨S_, .i32⟩
  | .hbm, ⟨24, _⟩ => ⟨S625000, .i32⟩
  | .hbm, ⟨25, _⟩ => ⟨S625000, .i1⟩
  | .hbm, ⟨26, _⟩ => ⟨S_, .i32⟩
  | .hbm, ⟨27, _⟩ => ⟨S625000, .i32⟩
  | .hbm, ⟨28, _⟩ => ⟨S625000, .i32⟩
  | .hbm, ⟨29, _⟩ => ⟨S625000, .i32⟩
  | .hbm, ⟨30, _⟩ => ⟨S625000x1, .i32⟩
  | .hbm, ⟨31, _⟩ => ⟨S625000x128, .f32⟩
  | .hbm, ⟨32, _⟩ => ⟨S625000x256, .f32⟩
  | .hbm, ⟨33, _⟩ => ⟨S256x128, .f32⟩
  | .hbm, ⟨34, _⟩ => ⟨S625000x128, .f32⟩
  | .hbm, ⟨35, _⟩ => ⟨S1x128, .f32⟩
  | .hbm, ⟨36, _⟩ => ⟨S625000x128, .f32⟩
  | .hbm, ⟨37, _⟩ => ⟨S625000x128, .f32⟩
  | .hbm, ⟨38, _⟩ => ⟨S_, .f32⟩
  | .hbm, ⟨39, _⟩ => ⟨S625000x128, .f32⟩
  | .hbm, ⟨40, _⟩ => ⟨S625000x128, .f32⟩
  | .hbm, ⟨41, _⟩ => ⟨S128x128, .f32⟩
  | .hbm, ⟨42, _⟩ => ⟨S625000x128, .f32⟩
  | .hbm, ⟨43, _⟩ => ⟨S1x128, .f32⟩
  | .hbm, ⟨44, _⟩ => ⟨S625000x128, .f32⟩
  | .hbm, ⟨45, _⟩ => ⟨S625000x128, .f32⟩
  | .hbm, ⟨46, _⟩ => ⟨S_, .f32⟩
  | .hbm, ⟨47, _⟩ => ⟨S50000x128, .f32⟩
  | .hbm, ⟨48, _⟩ => ⟨S625000x1, .i32⟩
  | .hbm, ⟨49, _⟩ => ⟨S50000x128, .f32⟩
  | .hbm, ⟨50, _⟩ => ⟨S128x384, .f32⟩
  | .hbm, ⟨51, _⟩ => ⟨S50000x384, .f32⟩
  | .hbm, ⟨52, _⟩ => ⟨S1x384, .f32⟩
  | .hbm, ⟨53, _⟩ => ⟨S50000x384, .f32⟩
  | .hbm, ⟨54, _⟩ => ⟨S50000x384, .f32⟩
  | .hbm, ⟨55, _⟩ => ⟨S128x384, .f32⟩
  | .hbm, ⟨56, _⟩ => ⟨S50000x384, .f32⟩
  | .hbm, ⟨57, _⟩ => ⟨S1x384, .f32⟩
  | .hbm, ⟨58, _⟩ => ⟨S50000x384, .f32⟩
  | .hbm, ⟨59, _⟩ => ⟨S50000x384, .f32⟩
  | .hbm, ⟨60, _⟩ => ⟨S50000x128, .f32⟩
  | .hbm, ⟨61, _⟩ => ⟨S50000x128, .f32⟩
  | .hbm, ⟨62, _⟩ => ⟨S50000x128, .f32⟩
  | .hbm, ⟨63, _⟩ => ⟨S50000x128, .f32⟩
  | .hbm, ⟨64, _⟩ => ⟨S50000x128, .f32⟩
  | .hbm, ⟨65, _⟩ => ⟨S50000x128, .f32⟩
  | .hbm, ⟨66, _⟩ => ⟨S50000x128, .f32⟩
  | .hbm, ⟨67, _⟩ => ⟨S50000x128, .f32⟩
  | .hbm, ⟨68, _⟩ => ⟨S50000x128, .f32⟩
  | .hbm, ⟨69, _⟩ => ⟨S_, .f32⟩
  | .hbm, ⟨70, _⟩ => ⟨S50000x128, .f32⟩
  | .hbm, ⟨71, _⟩ => ⟨S50000x128, .f32⟩
  | .hbm, ⟨72, _⟩ => ⟨S_, .f32⟩
  | .hbm, ⟨73, _⟩ => ⟨S50000x128, .f32⟩
  | .hbm, ⟨74, _⟩ => ⟨S50000x128, .f32⟩
  | .hbm, ⟨75, _⟩ => ⟨S50000x128, .f32⟩
  | .hbm, ⟨76, _⟩ => ⟨S50000x128, .f32⟩
  | .hbm, ⟨77, _⟩ => ⟨S50000x128, .f32⟩
  | .hbm, ⟨78, _⟩ => ⟨S_, .f32⟩
  | .hbm, ⟨79, _⟩ => ⟨S50000x128, .f32⟩
  | .hbm, ⟨80, _⟩ => ⟨S50000x128, .f32⟩
  | .hbm, ⟨81, _⟩ => ⟨S_, .f32⟩
  | .hbm, ⟨82, _⟩ => ⟨S50000x128, .f32⟩
  | .hbm, ⟨83, _⟩ => ⟨S50000x128, .f32⟩
  | .hbm, ⟨84, _⟩ => ⟨S50000x128, .f32⟩
  | .hbm, ⟨85, _⟩ => ⟨S50000x128, .f32⟩
  | .hbm, ⟨86, _⟩ => ⟨S50000x128, .f32⟩
  | .hbm, ⟨87, _⟩ => ⟨S_, .f32⟩
  | .hbm, ⟨88, _⟩ => ⟨S50000x128, .f32⟩
  | .hbm, ⟨89, _⟩ => ⟨S50000x128, .f32⟩
  | .hbm, ⟨90, _⟩ => ⟨S50000x128, .f32⟩
  | .hbm, ⟨91, _⟩ => ⟨S50000x128, .f32⟩
  | .hbm, ⟨92, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_c_1 : Ref sig .tc := ⟨.hbm, 23, rfl⟩
abbrev main_v11 : Ref sig .tc := ⟨.hbm, 24, rfl⟩
abbrev main_v12 : Ref sig .tc := ⟨.hbm, 25, rfl⟩
abbrev main_c_2 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_call0_cst : Ref sig .tc := ⟨.hbm, 38, rfl⟩
abbrev main_call0_v0 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_cst_3 : Ref sig .tc := ⟨.hbm, 69, rfl⟩
abbrev main_v52 : Ref sig .tc := ⟨.hbm, 70, rfl⟩
abbrev main_v53 : Ref sig .tc := ⟨.hbm, 71, rfl⟩
abbrev main_cst_4 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_cst_5 : Ref sig .tc := ⟨.hbm, 78, rfl⟩
abbrev main_v59 : Ref sig .tc := ⟨.hbm, 79, rfl⟩
abbrev main_v60 : Ref sig .tc := ⟨.hbm, 80, rfl⟩
abbrev main_cst_6 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_cst_7 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩

abbrev nD : Nat := 1
abbrev τ : Topo := Topo.v7x

variable {F : FTy → Type} [FloatOps F]

class Facts₀ : Prop where
  slices_S625000x3_S625000x1_0_0 : S625000x3.Slices ![0, 0] S625000x1
  shapeCasts_S625000x1_S625000 : S625000x1.ShapeCasts S625000
  slices_S625000x3_S625000x1_0_2 : S625000x3.Slices ![0, 2] S625000x1
  bcast_S_S625000 : S_.BroadcastsInDim S625000 (![] : Fin 0 → Fin S625000.rank)
  bcast_S625000_S625000x1_0 : S625000.BroadcastsInDim S625000x1 (![0] : Fin 1 → Fin S625000x1.rank)
  concatenates_S625000x128_S625000x128_S625000x256_d1 : Shape.Concatenates [S625000x128, S625000x128] S625000x256 1
  transposes_S128x256_S256x128_1_0 : S128x256.Transposes [1, 0] S256x128
  bcast_S128_S1x128_1 : S128.BroadcastsInDim S1x128 (![1] : Fin 1 → Fin S1x128.rank)
  bcast_S1x128_S625000x128_0_1 : S1x128.BroadcastsInDim S625000x128 (![0, 1] : Fin 2 → Fin S625000x128.rank)
  bcast_S_S625000x128 : S_.BroadcastsInDim S625000x128 (![] : Fin 0 → Fin S625000x128.rank)
  transposes_S128x128_S128x128_1_0 : S128x128.Transposes [1, 0] S128x128
  bcast_S_S50000x128 : S_.BroadcastsInDim S50000x128 (![] : Fin 0 → Fin S50000x128.rank)
  transposes_S384x128_S128x384_1_0 : S384x128.Transposes [1, 0] S128x384
  bcast_S384_S1x384_1 : S384.BroadcastsInDim S1x384 (![1] : Fin 1 → Fin S1x384.rank)
  bcast_S1x384_S50000x384_0_1 : S1x384.BroadcastsInDim S50000x384 (![0, 1] : Fin 2 → Fin S50000x384.rank)
  slices_S50000x384_S50000x128_0_0 : S50000x384.Slices ![0, 0] S50000x128
  slices_S50000x384_S50000x128_0_128 : S50000x384.Slices ![0, 128] S50000x128
  slices_S50000x384_S50000x128_0_256 : S50000x384.Slices ![0, 256] S50000x128
  gather_S50000x128_S625000x1_S625000x128_1_0_n_n_0_1_1128_wf : GatherDims.WF S50000x128 S625000x1 S625000x128 [1] [0] [] [0] [] 1 ![1, 128]
  dot_S625000x256_S256x128_S625000x128_1_0_0_1_n_n_wf : DotDims.WF S625000x256 S256x128 S625000x128 [1] [0] [0] [1] [] []
  dot_S625000x128_S128x128_S625000x128_1_0_0_1_n_n_wf : DotDims.WF S625000x128 S128x128 S625000x128 [1] [0] [0] [1] [] []
  scatter_S50000x128_S625000x1_S625000x128_1_0_0_1_wf : ScatterDims.WF S50000x128 S625000x1 S625000x128 [1] [0] [0] 1
  dot_S50000x128_S128x384_S50000x384_1_0_0_1_n_n_wf : DotDims.WF S50000x128 S128x384 S50000x384 [1] [0] [0] [1] [] []

variable [Facts₀]

def gather_S50000x128_S625000x1_S625000x128_1_0_n_n_0_1_1128 : GatherDims S50000x128 S625000x1 S625000x128 where
  offsetDims := [1]
  collapsedSliceDims := [0]
  operandBatchingDims := []
  startIndicesBatchingDims := []
  startIndexMap := [0]
  indexVectorDim := 1
  sliceSizes := ![1, 128]
  wf := gather_S50000x128_S625000x1_S625000x128_1_0_n_n_0_1_1128_wf
def dot_S625000x256_S256x128_S625000x128_1_0_0_1_n_n : DotDims S625000x256 S256x128 S625000x128 where
  lhsContracting := [1]
  rhsContracting := [0]
  lhsNonContracting := [0]
  rhsNonContracting := [1]
  lhsBatch := []
  rhsBatch := []
  wf := dot_S625000x256_S256x128_S625000x128_1_0_0_1_n_n_wf
def dot_S625000x128_S128x128_S625000x128_1_0_0_1_n_n : DotDims S625000x128 S128x128 S625000x128 where
  lhsContracting := [1]
  rhsContracting := [0]
  lhsNonContracting := [0]
  rhsNonContracting := [1]
  lhsBatch := []
  rhsBatch := []
  wf := dot_S625000x128_S128x128_S625000x128_1_0_0_1_n_n_wf
def scatter_S50000x128_S625000x1_S625000x128_1_0_0_1 : ScatterDims S50000x128 S625000x1 S625000x128 where
  updateWindowDims := [1]
  insertedWindowDims := [0]
  scatterDimsToOperandDims := [0]
  indexVectorDim := 1
  wf := scatter_S50000x128_S625000x1_S625000x128_1_0_0_1_wf
def dot_S50000x128_S128x384_S50000x384_1_0_0_1_n_n : DotDims S50000x128 S128x384 S50000x384 where
  lhsContracting := [1]
  rhsContracting := [0]
  lhsNonContracting := [0]
  rhsNonContracting := [1]
  lhsBatch := []
  rhsBatch := []
  wf := dot_S50000x128_S128x384_S50000x384_1_0_0_1_n_n_wf

class Facts : Prop extends Facts₀ where

variable [Facts]
-- ==== Proof.Spec.lean ====
/-
  What the two programs compute, as functions of whole arrays over the extended reals.

  A message is computed per edge: the two gathered feature rows `x`, `y` (each 128 long) are joined into one row of 256,
  multiplied by the transposed weight `W1` (128 × 256), shifted by `b1`, clipped below at zero (`hidden`), then multiplied
  by the transposed `W2` and shifted by `b2` (`msgRef`). A node's new state is the gated recurrent update
  `(1 - z) · n + z · h` with `r = σ(gi₀ + gh₀)`, `z = σ(gi₁ + gh₁)`, `n = tanh(gi₂ + r · gh₂)`, where `gi = a · Wihᵀ + bih`
  and `gh = h · Whhᵀ + bhh` are 384 wide and split into three bands of 128 (`gates`, `gruRef`), `a` the summed messages
  of the node, `h` its old state, and `σ(u) = 1 / (1 + e^(-u))` (`sigm`).
-/
import proofs.«165444_j7275674599837_1_alg».proof.Proof.Gen.ReferenceIdeal
import Idealize.ShloMosaic.PureOps.Ideal

noncomputable section

namespace Cert.Spec

open Idealize.ShloMosaic Cert.ReferenceIdeal Cert.ReferenceIdeal.Gen

/-- The hidden layer of the message network on every edge: `max(concat(x, y) · W1ᵀ + b1, 0)`. -/
def hidden (X Y : FVec Ideal S625000x128 .f32) (W1 : FVec Ideal S128x256 .f32) (b1 : FVec Ideal S128 .f32) :
    FVec Ideal S625000x128 .f32 :=
  maximumf (addf (Host.dotGeneral dot_S625000x256_S256x128_S625000x128_1_0_0_1_n_n none (concatenate S625000x256 1 [⟨S625000x128, X⟩, ⟨S625000x128, Y⟩] concatenates_S625000x128_S625000x128_S625000x256_d1) (transpose S256x128 [1, 0] W1 transposes_S128x256_S256x128_1_0)) (broadcastInDim S625000x128 ![0, 1] bcast_S1x128_S625000x128_0_1 (broadcastInDim S1x128 ![1] bcast_S128_S1x128_1 b1))) (broadcastInDim S625000x128 ![] bcast_S_S625000x128 (constant S_ .f32 0x00000000#32))

/-- The message of every edge: `hidden · W2ᵀ + b2`. -/
def msgRef (X Y : FVec Ideal S625000x128 .f32) (W1 : FVec Ideal S128x256 .f32) (b1 : FVec Ideal S128 .f32)
    (W2 : FVec Ideal S128x128 .f32) (b2 : FVec Ideal S128 .f32) : FVec Ideal S625000x128 .f32 :=
  addf (Host.dotGeneral dot_S625000x128_S128x128_S625000x128_1_0_0_1_n_n none (hidden X Y W1 b1) (transpose S128x128 [1, 0] W2 transposes_S128x128_S128x128_1_0)) (broadcastInDim S625000x128 ![0, 1] bcast_S1x128_S625000x128_0_1 (broadcastInDim S1x128 ![1] bcast_S128_S1x128_1 b2))

/-- The three gate pre-activations of every node, side by side: `a · Wᵀ + b`, 384 wide. -/
def gates (A : FVec Ideal S50000x128 .f32) (W : FVec Ideal S384x128 .f32) (b : FVec Ideal S384 .f32) :
    FVec Ideal S50000x384 .f32 :=
  addf (Host.dotGeneral dot_S50000x128_S128x384_S50000x384_1_0_0_1_n_n none A (transpose S128x384 [1, 0] W transposes_S384x128_S128x384_1_0)) (broadcastInDim S50000x384 ![0, 1] bcast_S1x384_S50000x384_0_1 (broadcastInDim S1x384 ![1] bcast_S384_S1x384_1 b))

/-- The constant one on every node and lane. -/
def ones : FVec Ideal S50000x128 .f32 :=
  broadcastInDim S50000x128 ![] bcast_S_S50000x128 (constant S_ .f32 0x3F800000#32)

/-- The logistic function spelt as a quotient: `1 / (1 + e^(-u))`. -/
def sigm (u : FVec Ideal S50000x128 .f32) : FVec Ideal S50000x128 .f32 :=
  Host.divf ones (addf ones (Host.exp (Host.negf u)))

/-- The gated recurrent update of every node from its summed messages `A` and its old state `H`. -/
def gruRef (A H : FVec Ideal S50000x128 .f32) (Wih : FVec Ideal S384x128 .f32) (bih : FVec Ideal S384 .f32)
    (Whh : FVec Ideal S384x128 .f32) (bhh : FVec Ideal S384 .f32) : FVec Ideal S50000x128 .f32 :=
  addf (mulf (subf ones (sigm (addf (extractStridedSlice S50000x128 ![0, 128] (gates A Wih bih) slices_S50000x384_S50000x128_0_128) (extractStridedSlice S50000x128 ![0, 128] (gates H Whh bhh) slices_S50000x384_S50000x128_0_128)))) (Host.tanh (addf (extractStridedSlice S50000x128 ![0, 256] (gates A Wih bih) slices_S50000x384_S50000x128_0_256) (mulf (sigm (addf (extractStridedSlice S50000x128 ![0, 0] (gates A Wih bih) slices_S50000x384_S50000x128_0_0) (extractStridedSlice S50000x128 ![0, 0] (gates H Whh bhh) slices_S50000x384_S50000x128_0_0))) (extractStridedSlice S50000x128 ![0, 256] (gates H Whh bhh) slices_S50000x384_S50000x128_0_256))))) (mulf (sigm (addf (extractStridedSlice S50000x128 ![0, 128] (gates A Wih bih) slices_S50000x384_S50000x128_0_128) (extractStridedSlice S50000x128 ![0, 128] (gates H Whh bhh) slices_S50000x384_S50000x128_0_128))) H)

end Cert.Spec

end
-- ==== Proof.SpecWhole.lean ====
/-
  The whole computation as one function of the ten arguments: gather the source and the target rows of every edge,
  run the message network, add every edge's message into its target node's row, and update every node.
-/
import proofs.«165444_j7275674599837_1_alg».proof.Proof.Spec

noncomputable section

namespace Cert.Spec

open Idealize.ShloMosaic Cert.ReferenceIdeal Cert.ReferenceIdeal.Gen

/-- The feature rows of the edges' sources: column 0 of the edge list, a negative entry shifted up by the number of
    nodes, gathered from the node features. -/
def srcRows (x0 : FVec Ideal S50000x128 .f32) (e : (⟨S625000x3, .i32⟩ : BufTy).Contents (Elt Ideal)) : FVec Ideal S625000x128 .f32 :=
  Host.gather gather_S50000x128_S625000x1_S625000x128_1_0_n_n_0_1_1128 x0 (broadcastInDim S625000x1 ![0] bcast_S625000_S625000x1_0 (select (cmpi .slt (shapeCast _ (extractStridedSlice S625000x1 ![0, 0] e slices_S625000x3_S625000x1_0_0) shapeCasts_S625000x1_S625000) (broadcastInDim S625000 ![] bcast_S_S625000 (constantI S_ 32 0#32))) (addi (shapeCast _ (extractStridedSlice S625000x1 ![0, 0] e slices_S625000x3_S625000x1_0_0) shapeCasts_S625000x1_S625000) (broadcastInDim S625000 ![] bcast_S_S625000 (constantI S_ 32 50000#32))) (shapeCast _ (extractStridedSlice S625000x1 ![0, 0] e slices_S625000x3_S625000x1_0_0) shapeCasts_S625000x1_S625000)))

/-- The feature rows of the edges' targets: the same from column 2. -/
def tgtRows (x0 : FVec Ideal S50000x128 .f32) (e : (⟨S625000x3, .i32⟩ : BufTy).Contents (Elt Ideal)) : FVec Ideal S625000x128 .f32 :=
  Host.gather gather_S50000x128_S625000x1_S625000x128_1_0_n_n_0_1_1128 x0 (broadcastInDim S625000x1 ![0] bcast_S625000_S625000x1_0 (select (cmpi .slt (shapeCast _ (extractStridedSlice S625000x1 ![0, 2] e slices_S625000x3_S625000x1_0_2) shapeCasts_S625000x1_S625000) (broadcastInDim S625000 ![] bcast_S_S625000 (constantI S_ 32 0#32))) (addi (shapeCast _ (extractStridedSlice S625000x1 ![0, 2] e slices_S625000x3_S625000x1_0_2) shapeCasts_S625000x1_S625000) (broadcastInDim S625000 ![] bcast_S_S625000 (constantI S_ 32 50000#32))) (shapeCast _ (extractStridedSlice S625000x1 ![0, 2] e slices_S625000x3_S625000x1_0_2) shapeCasts_S625000x1_S625000)))

/-- The edges' targets as the scatter's index column: column 2 of the edge list as it is. -/
def tgtIdx (e : (⟨S625000x3, .i32⟩ : BufTy).Contents (Elt Ideal)) : (⟨S625000x1, .i32⟩ : BufTy).Contents (Elt Ideal) :=
  broadcastInDim S625000x1 ![0] bcast_S625000_S625000x1_0 (shapeCast _ (extractStridedSlice S625000x1 ![0, 2] e slices_S625000x3_S625000x1_0_2) shapeCasts_S625000x1_S625000)

/-- The array of zeros the messages are added into. -/
def zeros : FVec Ideal S50000x128 .f32 :=
  broadcastInDim S50000x128 ![] bcast_S_S50000x128 (constant S_ .f32 0x00000000#32)

/-- The new node states from the ten arguments. -/
def whole (a0 : FVec Ideal S50000x128 .f32) (a1 : (⟨S625000x3, .i32⟩ : BufTy).Contents (Elt Ideal))
    (a2 : FVec Ideal S128x256 .f32) (a3 : FVec Ideal S128 .f32) (a4 : FVec Ideal S128x128 .f32) (a5 : FVec Ideal S128 .f32)
    (a6 : FVec Ideal S384x128 .f32) (a7 : FVec Ideal S384 .f32) (a8 : FVec Ideal S384x128 .f32) (a9 : FVec Ideal S384 .f32) :
    FVec Ideal S50000x128 .f32 :=
  gruRef (Host.scatterAdd scatter_S50000x128_S625000x1_S625000x128_1_0_0_1 zeros (tgtIdx a1) (msgRef (srcRows a0 a1) (tgtRows a0 a1) a2 a3 a4 a5)) a0 a6 a7 a8 a9

end Cert.Spec

end
-- ==== Proof.LibAffineRows.lean ====
/-
  A dense layer read row by row, at the ideal values.

  A kernel that tiles the rows of a matrix `X` computes, on each tile `xb`, the product `xb · w` by a matrix unit
  (operands narrowed to bf16, accumulated into zeros) and adds a bias row kept as a `[1, M]` block; the plain program
  computes `X · w` by one `dot_general` and adds the bias vector `[M]` broadcast over the rows. Over the extended reals
  narrowing is the identity and both products are the textbook sum over the contracted index, so row `r` of the tile's
  result is row `n r` of the whole result as soon as row `r` of the tile is row `n r` of `X`
  (`affine_rows`), and the same after a `tanh` (`tanh_affine_rows`). Nothing here depends on the sizes.
-/
import Idealize.ShloMosaic.Lib.ValueIdx
import Idealize.ShloMosaic.Lib.ValueLayout
import Idealize.ShloMosaic.Lib.Pipeline.Value
import Idealize.ShloMosaic.PureOps.Ideal.Laws

noncomputable section

namespace Cert.Lib

open Idealize.ShloMosaic Idealize.ShloMosaic.ValueIdx

/-- The dimension numbers `d` describe the plain product of an `[R, K]` by a `[K, M]` matrix: one contracted index of
    extent `K`, which is the left operand's column and the right operand's row; the result's row is the left operand's
    row and its column the right operand's column. -/
structure PlainDot {R K M : ℕ} (d : DotDims ⟨2, ![R, K]⟩ ⟨2, ![K, M]⟩ ⟨2, ![R, M]⟩) : Prop where
  rank : d.contr.rank = 1
  size : d.contr.size ⟨0, by omega⟩ = K
  l0 : ∀ (i : (⟨2, ![R, M]⟩ : Shape).Idx) (q : d.contr.Idx), (d.lhsIdx i q 0).val = (i 0).val
  l1 : ∀ (i : (⟨2, ![R, M]⟩ : Shape).Idx) (q : d.contr.Idx), (d.lhsIdx i q 1).val = (q ⟨0, by omega⟩).val
  r0 : ∀ (i : (⟨2, ![R, M]⟩ : Shape).Idx) (q : d.contr.Idx), (d.rhsIdx i q 0).val = (q ⟨0, by omega⟩).val
  r1 : ∀ (i : (⟨2, ![R, M]⟩ : Shape).Idx) (q : d.contr.Idx), (d.rhsIdx i q 1).val = (i 1).val

variable {R K M : ℕ}

/-- The sum over the record's contraction index is the sum over `k < K` of `x (r, k) · w (k, c)`. -/
theorem PlainDot.sum_eq {d : DotDims ⟨2, ![R, K]⟩ ⟨2, ![K, M]⟩ ⟨2, ![R, M]⟩} (h : PlainDot d)
    (x : (⟨2, ![R, K]⟩ : Shape).Idx → EReal) (w : (⟨2, ![K, M]⟩ : Shape).Idx → EReal) (r : Fin R) (c : Fin M) :
    ∑ k : d.contr.Idx, x (d.lhsIdx (ix2 r c) k) * w (d.rhsIdx (ix2 r c) k) = ∑ k : Fin K, x (ix2 r k) * w (ix2 k c) := by
  rw [← Equiv.sum_comp (contrEquiv1 d K h.rank h.size).symm]
  refine Finset.sum_congr rfl fun k _ => ?_
  have hk := contrEquiv1_symm_val d K h.rank h.size k
  have el : d.lhsIdx (ix2 r c) ((contrEquiv1 d K h.rank h.size).symm k) = ix2 r k := funext fun a => Fin.ext (by
    match a with
    | ⟨0, _⟩ => exact h.l0 _ _
    | ⟨1, _⟩ => exact (h.l1 _ _).trans hk)
  have er : d.rhsIdx (ix2 r c) ((contrEquiv1 d K h.rank h.size).symm k) = ix2 k c := funext fun a => Fin.ext (by
    match a with
    | ⟨0, _⟩ => exact (h.r0 _ _).trans hk
    | ⟨1, _⟩ => exact h.r1 _ _)
  rw [el, er]

/-- A matrix unit's product of two narrowed operands into zeros, at `(r, c)`: the textbook sum. -/
theorem matmul_zero_apply {d : DotDims ⟨2, ![R, K]⟩ ⟨2, ![K, M]⟩ ⟨2, ![R, M]⟩} (h : PlainDot d)
    (x : FVec Ideal ⟨2, ![R, K]⟩ .f32) (w : FVec Ideal ⟨2, ![K, M]⟩ .f32) (ht : FTy.bits .bf16 < FTy.bits .f32)
    (r : Fin R) (c : Fin M) :
    matmul d none (truncf .bf16 x ht) (truncf .bf16 w ht) (constant ⟨2, ![R, M]⟩ .f32 0x00000000#32) (ix2 r c)
      = ∑ k : Fin K, x (ix2 r k) * w (ix2 k c) := by
  simp only [matmul]
  rw [Ideal.matmul_constant_zero_apply]
  exact h.sum_eq (fun i => x i) (fun i => w i) r c

/-- The host's `dot_general` at `(r, c)`: the same sum. -/
theorem dotGeneral_apply {d : DotDims ⟨2, ![R, K]⟩ ⟨2, ![K, M]⟩ ⟨2, ![R, M]⟩} (h : PlainDot d)
    (x : FVec Ideal ⟨2, ![R, K]⟩ .f32) (w : FVec Ideal ⟨2, ![K, M]⟩ .f32) (r : Fin R) (c : Fin M) :
    Host.dotGeneral d none x w (ix2 r c) = ∑ k : Fin K, x (ix2 r k) * w (ix2 k c) := by
  simp only [Host.dotGeneral]
  rw [Ideal.dotGeneral_apply]
  exact h.sum_eq (fun i => x i) (fun i => w i) r c

/-- A bias vector `[M]` made a row `[1, M]` and then broadcast over `N` rows reads, at `(n, q)`, the vector at `q`. -/
theorem bias_rows_apply {N : ℕ} (b : FVec Ideal ⟨1, ![M]⟩ .f32)
    (h1 : (⟨1, ![M]⟩ : Shape).BroadcastsInDim ⟨2, ![1, M]⟩ (![1] : Fin 1 → Fin 2))
    (h2 : (⟨2, ![1, M]⟩ : Shape).BroadcastsInDim ⟨2, ![N, M]⟩ (![0, 1] : Fin 2 → Fin 2)) (n : Fin N) (q : Fin M) :
    broadcastInDim ⟨2, ![N, M]⟩ ![0, 1] h2 (broadcastInDim ⟨2, ![1, M]⟩ ![1] h1 b) (ix2 n q) = b (ix1 q) := by
  rw [broadcastInDim_apply _ h2 _ (ix2 n q) (ix2 (0 : Fin 1) q) (fun a => by
    match a with
    | ⟨0, _⟩ => show (0 : ℕ) = if (1 : ℕ) = 1 then 0 else n.val; rw [if_pos rfl]
    | ⟨1, _⟩ => show q.val = if M = 1 then 0 else q.val; split <;> [(have := q.isLt; omega); rfl])]
  exact broadcastInDim_apply _ h1 b (ix2 (0 : Fin 1) q) (ix1 q) (fun a => by
    match a with
    | ⟨0, _⟩ => show q.val = if M = 1 then 0 else q.val; split <;> [(have := q.isLt; omega); rfl])

/-- ROW BY ROW: where row `r` of the tile `xb` is row `n r` of `X` and the bias block's row is the bias vector, the
    tile's `xb · w + bias` at `(r, q)` is the whole `X · w + bias` at `(n r, q)`. -/
theorem affine_rows {N : ℕ}
    {dB : DotDims ⟨2, ![R, K]⟩ ⟨2, ![K, M]⟩ ⟨2, ![R, M]⟩} (hB : PlainDot dB)
    {dW : DotDims ⟨2, ![N, K]⟩ ⟨2, ![K, M]⟩ ⟨2, ![N, M]⟩} (hW : PlainDot dW)
    (xb : FVec Ideal ⟨2, ![R, K]⟩ .f32) (X : FVec Ideal ⟨2, ![N, K]⟩ .f32) (w : FVec Ideal ⟨2, ![K, M]⟩ .f32)
    (b2 : FVec Ideal ⟨2, ![1, M]⟩ .f32) (b : FVec Ideal ⟨1, ![M]⟩ .f32) (n : Fin R → Fin N)
    (hx : ∀ r k, xb (ix2 r k) = X (ix2 (n r) k)) (hb : ∀ q : Fin M, b2 (ix2 (0 : Fin 1) q) = b (ix1 q))
    (ht : FTy.bits .bf16 < FTy.bits .f32) (hsc : (⟨2, ![1, M]⟩ : Shape).ShapeCasts ⟨2, ![1, M]⟩)
    (hbc : (⟨2, ![1, M]⟩ : Shape).Broadcasts ⟨2, ![R, M]⟩)
    (h1 : (⟨1, ![M]⟩ : Shape).BroadcastsInDim ⟨2, ![1, M]⟩ (![1] : Fin 1 → Fin 2))
    (h2 : (⟨2, ![1, M]⟩ : Shape).BroadcastsInDim ⟨2, ![N, M]⟩ (![0, 1] : Fin 2 → Fin 2)) (r : Fin R) (q : Fin M) :
    addf (matmul dB none (truncf .bf16 xb ht) (truncf .bf16 w ht) (constant ⟨2, ![R, M]⟩ .f32 0x00000000#32))
        (broadcastTo ⟨2, ![R, M]⟩ (shapeCast ⟨2, ![1, M]⟩ b2 hsc) hbc) (ix2 r q)
      = addf (Host.dotGeneral dW none X w) (broadcastInDim ⟨2, ![N, M]⟩ ![0, 1] h2 (broadcastInDim ⟨2, ![1, M]⟩ ![1] h1 b)) (ix2 (n r) q) := by
  rw [addf_apply, addf_apply, matmul_zero_apply hB, dotGeneral_apply hW, bias_rows_apply, broadcastTo_1b_ab_apply,
    shapeCast_self, hb]
  exact congrArg (· + b (ix1 q)) (Finset.sum_congr rfl fun k _ => by rw [hx])

/-- The same after the hyperbolic tangent, the kernel's and the host's being one function of an extended real. -/
theorem tanh_affine_rows {N : ℕ}
    {dB : DotDims ⟨2, ![R, K]⟩ ⟨2, ![K, M]⟩ ⟨2, ![R, M]⟩} (hB : PlainDot dB)
    {dW : DotDims ⟨2, ![N, K]⟩ ⟨2, ![K, M]⟩ ⟨2, ![N, M]⟩} (hW : PlainDot dW)
    (xb : FVec Ideal ⟨2, ![R, K]⟩ .f32) (X : FVec Ideal ⟨2, ![N, K]⟩ .f32) (w : FVec Ideal ⟨2, ![K, M]⟩ .f32)
    (b2 : FVec Ideal ⟨2, ![1, M]⟩ .f32) (b : FVec Ideal ⟨1, ![M]⟩ .f32) (n : Fin R → Fin N)
    (hx : ∀ r k, xb (ix2 r k) = X (ix2 (n r) k)) (hb : ∀ q : Fin M, b2 (ix2 (0 : Fin 1) q) = b (ix1 q))
    (ht : FTy.bits .bf16 < FTy.bits .f32) (hsc : (⟨2, ![1, M]⟩ : Shape).ShapeCasts ⟨2, ![1, M]⟩)
    (hbc : (⟨2, ![1, M]⟩ : Shape).Broadcasts ⟨2, ![R, M]⟩)
    (h1 : (⟨1, ![M]⟩ : Shape).BroadcastsInDim ⟨2, ![1, M]⟩ (![1] : Fin 1 → Fin 2))
    (h2 : (⟨2, ![1, M]⟩ : Shape).BroadcastsInDim ⟨2, ![N, M]⟩ (![0, 1] : Fin 2 → Fin 2)) (r : Fin R) (q : Fin M) :
    tanh (addf (matmul dB none (truncf .bf16 xb ht) (truncf .bf16 w ht) (constant ⟨2, ![R, M]⟩ .f32 0x00000000#32))
        (broadcastTo ⟨2, ![R, M]⟩ (shapeCast ⟨2, ![1, M]⟩ b2 hsc) hbc)) (ix2 r q)
      = Host.tanh (addf (Host.dotGeneral dW none X w)
          (broadcastInDim ⟨2, ![N, M]⟩ ![0, 1] h2 (broadcastInDim ⟨2, ![1, M]⟩ ![1] h1 b))) (ix2 (n r) q) :=
  congrArg Ideal.tanh (affine_rows hB hW xb X w b2 b n hx hb ht hsc hbc h1 h2 r q)

end Cert.Lib

end
-- ==== Proof.MsgRows.lean ====
/-
  One tile of edges against all edges: the message network row by row.
-/
import proofs.«165444_j7275674599837_1_alg».proof.Proof.Spec
import proofs.«165444_j7275674599837_1_alg».proof.Proof.LibAffineRows
import proofs.«165444_j7275674599837_1_alg».proof.Proof.Gen.KernelIdeal.Skeleton
import proofs.«165444_j7275674599837_1_alg».proof.Proof.Gen.ReferenceIdeal.Read
import Idealize.ShloMosaic.Lib.ValueIdx
import Idealize.ShloMosaic.Lib.ValueLayout
import Idealize.ShloMosaic.Lib.Pipeline.Value
import Idealize.ShloMosaic.PureOps.Ideal.Laws
import Mathlib.Algebra.BigOperators.Fin

noncomputable section

namespace Cert.MsgRows

open Idealize.ShloMosaic Idealize.ShloMosaic.ValueIdx

/-! ## The three product records are plain products

The tile's record contracts the left operand's column with the right operand's row and has no batch axis; its four
axis facts are read off the record as the reference's are. -/

section TileRecord
open Cert.KernelIdeal

theorem lhs_tile_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_tile_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhs_tile_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhs_tile_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

end TileRecord

/-- The tile's record: `[5000, 128] × [128, 128]`. -/
theorem tileDot : Cert.Lib.PlainDot Cert.KernelIdeal.dot_S5000x128_S128x128_S5000x128_1_0_0_1_n_n :=
  ⟨rfl, rfl, lhs_tile_0, lhs_tile_1, rhs_tile_0, rhs_tile_1⟩

/-- The reference's first record: `[625000, 256] × [256, 128]`. -/
theorem hidDot : Cert.Lib.PlainDot Cert.ReferenceIdeal.dot_S625000x256_S256x128_S625000x128_1_0_0_1_n_n :=
  ⟨rfl, rfl, Cert.ReferenceIdeal.Read.lhs_main_v20_0, Cert.ReferenceIdeal.Read.lhs_main_v20_1,
    Cert.ReferenceIdeal.Read.rhs_main_v20_0, Cert.ReferenceIdeal.Read.rhs_main_v20_1⟩

/-- The reference's second record: `[625000, 128] × [128, 128]`. -/
theorem outDot : Cert.Lib.PlainDot Cert.ReferenceIdeal.dot_S625000x128_S128x128_S625000x128_1_0_0_1_n_n :=
  ⟨rfl, rfl, Cert.ReferenceIdeal.Read.lhs_main_v26_0, Cert.ReferenceIdeal.Read.lhs_main_v26_1,
    Cert.ReferenceIdeal.Read.rhs_main_v26_0, Cert.ReferenceIdeal.Read.rhs_main_v26_1⟩

/-! ## Products against a transposed weight, read at an index -/

section Generic
variable {R K M : ℕ}

/-- A matrix unit's product of any two operands into zeros, at `(r, c)`: the textbook sum. -/
theorem matmul_zero_any {φ₁ φ₂ : FTy} {d : DotDims ⟨2, ![R, K]⟩ ⟨2, ![K, M]⟩ ⟨2, ![R, M]⟩} (h : Cert.Lib.PlainDot d)
    (x : FVec Ideal ⟨2, ![R, K]⟩ φ₁) (w : FVec Ideal ⟨2, ![K, M]⟩ φ₂) (r : Fin R) (c : Fin M) :
    matmul d none x w (constant ⟨2, ![R, M]⟩ .f32 0x00000000#32) (ix2 r c) = ∑ k : Fin K, x (ix2 r k) * w (ix2 k c) := by
  simp only [matmul]
  rw [Ideal.matmul_constant_zero_apply]
  exact h.sum_eq (fun i => x i) (fun i => w i) r c

/-- The tile's product with a weight kept as `[M, K]`, narrowed and then transposed: at `(r, c)` the sum over `k` of
    `x (r, k) · w (c, k)`, narrowing being the identity on extended reals. -/
theorem matmul_transposed_apply {d : DotDims ⟨2, ![R, K]⟩ ⟨2, ![K, M]⟩ ⟨2, ![R, M]⟩} (h : Cert.Lib.PlainDot d)
    (x : FVec Ideal ⟨2, ![R, K]⟩ .f32) (w : FVec Ideal ⟨2, ![M, K]⟩ .f32) (ht : FTy.bits .bf16 < FTy.bits .f32)
    (htr : (⟨2, ![M, K]⟩ : Shape).Transposes [1, 0] ⟨2, ![K, M]⟩) (r : Fin R) (c : Fin M) :
    matmul d none (truncf .bf16 x ht) (transpose ⟨2, ![K, M]⟩ [1, 0] (truncf .bf16 w ht) htr)
        (constant ⟨2, ![R, M]⟩ .f32 0x00000000#32) (ix2 r c)
      = ∑ k : Fin K, x (ix2 r k) * w (ix2 c k) := by
  rw [matmul_zero_any h]
  refine Finset.sum_congr rfl fun k _ => ?_
  rw [transpose_ix2_apply]
  rfl

/-- The host's product with a transposed weight: the same sum. -/
theorem dot_transposed_apply {d : DotDims ⟨2, ![R, K]⟩ ⟨2, ![K, M]⟩ ⟨2, ![R, M]⟩} (h : Cert.Lib.PlainDot d)
    (x : FVec Ideal ⟨2, ![R, K]⟩ .f32) (w : FVec Ideal ⟨2, ![M, K]⟩ .f32)
    (htr : (⟨2, ![M, K]⟩ : Shape).Transposes [1, 0] ⟨2, ![K, M]⟩) (r : Fin R) (c : Fin M) :
    Host.dotGeneral d none x (transpose ⟨2, ![K, M]⟩ [1, 0] w htr) (ix2 r c) = ∑ k : Fin K, x (ix2 r k) * w (ix2 c k) := by
  rw [Cert.Lib.dotGeneral_apply h]
  exact Finset.sum_congr rfl fun k _ => by rw [transpose_ix2_apply]

/-- A bias block `[1, M]` recast to its own shape and spread over `R` rows reads its one row. -/
theorem bias_tile_apply (b : FVec Ideal ⟨2, ![1, M]⟩ .f32) (hsc : (⟨2, ![1, M]⟩ : Shape).ShapeCasts ⟨2, ![1, M]⟩)
    (hbc : (⟨2, ![1, M]⟩ : Shape).Broadcasts ⟨2, ![R, M]⟩) (r : Fin R) (q : Fin M) :
    broadcastTo ⟨2, ![R, M]⟩ (shapeCast ⟨2, ![1, M]⟩ b hsc) hbc (ix2 r q) = b (ix2 (0 : Fin 1) q) := by
  rw [broadcastTo_1b_ab_apply, shapeCast_self]

end Generic

/-! ## A sum over 256 joined columns is two sums over 128 -/

/-- The first 128 indices and the last 128 indices of 256 exhaust them. -/
theorem sum_256_split (f : Fin 256 → EReal) :
    ∑ j : Fin 256, f j
      = ∑ j : Fin 128, f ⟨j.val, by omega⟩ + ∑ j : Fin 128, f ⟨128 + j.val, by omega⟩ :=
  Fin.sum_univ_add (a := 128) (b := 128) f

section Joined
variable {N : ℕ}

/-- A row of the joined array reads the first array on its first 128 columns … -/
theorem joined_left (X Y : (⟨2, ![N, 128]⟩ : Shape).Idx → EReal)
    (h : Shape.Concatenates [(⟨2, ![N, 128]⟩ : Shape), ⟨2, ![N, 128]⟩] ⟨2, ![N, 256]⟩ 1) (m : Fin N) (j : Fin 128) :
    concatenate ⟨2, ![N, 256]⟩ 1 [⟨⟨2, ![N, 128]⟩, X⟩, ⟨⟨2, ![N, 128]⟩, Y⟩] h (ix2 m (⟨j.val, by omega⟩ : Fin 256))
      = X (ix2 m j) :=
  concatenate_pair_apply_left 1 X Y h _ rfl (ix2 m j) fun b => match b with
    | ⟨0, _⟩ => rfl
    | ⟨1, _⟩ => rfl

/-- … and the second array on its last 128. -/
theorem joined_right (X Y : (⟨2, ![N, 128]⟩ : Shape).Idx → EReal)
    (h : Shape.Concatenates [(⟨2, ![N, 128]⟩ : Shape), ⟨2, ![N, 128]⟩] ⟨2, ![N, 256]⟩ 1) (m : Fin N) (j : Fin 128) :
    concatenate ⟨2, ![N, 256]⟩ 1 [⟨⟨2, ![N, 128]⟩, X⟩, ⟨⟨2, ![N, 128]⟩, Y⟩] h (ix2 m (⟨128 + j.val, by omega⟩ : Fin 256))
      = Y (ix2 m j) :=
  concatenate_pair_apply_right 1 X Y h _ rfl rfl (ix2 m j)
    (fun b => match b with
      | ⟨0, _⟩ => fun _ => rfl
      | ⟨1, _⟩ => fun hne => absurd rfl hne)
    (show j.val + 128 = 128 + j.val by omega)

end Joined

/-! ## The hidden layer, row by row -/

section Hidden
open Cert.KernelIdeal Cert.KernelIdeal.Gen

/-- The tile's hidden layer as the kernel's body spells it: `max(xb · w1aᵀ + yb · w1bᵀ + b1row, 0)`. -/
def hidTile (xb yb : FVec Ideal S5000x128 .f32) (w1a w1b : FVec Ideal S128x128 .f32) (b1r : FVec Ideal S1x128 .f32) :
    FVec Ideal S5000x128 .f32 :=
  maximumf
    (addf
      (addf
        (matmul dot_S5000x128_S128x128_S5000x128_1_0_0_1_n_n none
          (truncf .bf16 (shapeCast S5000x128 xb shapeCasts_S5000x128_S5000x128) bitsLt_bf16_f32)
          (transpose S128x128 [1, 0] (truncf .bf16 (shapeCast S128x128 w1a shapeCasts_S128x128_S128x128) bitsLt_bf16_f32)
            transposes_S128x128_p1_0_S128x128)
          (constant S5000x128 .f32 0x00000000#32))
        (matmul dot_S5000x128_S128x128_S5000x128_1_0_0_1_n_n none
          (truncf .bf16 (shapeCast S5000x128 yb shapeCasts_S5000x128_S5000x128) bitsLt_bf16_f32)
          (transpose S128x128 [1, 0] (truncf .bf16 (shapeCast S128x128 w1b shapeCasts_S128x128_S128x128) bitsLt_bf16_f32)
            transposes_S128x128_p1_0_S128x128)
          (constant S5000x128 .f32 0x00000000#32)))
      (broadcastTo S5000x128 (shapeCast S1x128 b1r shapeCasts_S1x128_S1x128) broadcasts_S1x128_S5000x128))
    (broadcast S5000x128 (Scalar.ofBits .f32 0x00000000#32 : Ideal .f32))

/-- The kernel's body is the second layer applied to the tile's hidden layer. -/
theorem k0_eq (xb yb : FVec Ideal S5000x128 .f32) (w1a w1b w2 : FVec Ideal S128x128 .f32) (b1r b2r : FVec Ideal S1x128 .f32) :
    k0_pay1 (F := Ideal) xb yb w1a w1b w2 b1r b2r
      = addf
          (matmul dot_S5000x128_S128x128_S5000x128_1_0_0_1_n_n none
            (truncf .bf16 (hidTile xb yb w1a w1b b1r) bitsLt_bf16_f32)
            (transpose S128x128 [1, 0] (truncf .bf16 w2 bitsLt_bf16_f32) transposes_S128x128_p1_0_S128x128)
            (constant S5000x128 .f32 0x00000000#32))
          (broadcastTo S5000x128 (shapeCast S1x128 b2r shapeCasts_S1x128_S1x128) broadcasts_S1x128_S5000x128) :=
  rfl

end Hidden

section Rows
open Cert.KernelIdeal Cert.KernelIdeal.Gen

/-- THE HIDDEN LAYER ROW BY ROW: at `(r, k)` the tile's hidden layer is the whole hidden layer at `(n r, k)`. The joined
    row's product with `W1ᵀ` is a sum over 256 columns; its first 128 terms are the tile's product with the left weight
    block, its last 128 the product with the right one. -/
theorem hidTile_rows (n : Fin 5000 → Fin 625000)
    (xb yb : FVec Ideal Cert.KernelIdeal.S5000x128 .f32) (w1a w1b : FVec Ideal Cert.KernelIdeal.S128x128 .f32)
    (b1r : FVec Ideal Cert.KernelIdeal.S1x128 .f32)
    (X Y : FVec Ideal Cert.ReferenceIdeal.S625000x128 .f32) (W1 : FVec Ideal Cert.ReferenceIdeal.S128x256 .f32)
    (b1 : FVec Ideal Cert.ReferenceIdeal.S128 .f32)
    (hx : ∀ (r : Fin 5000) (k : Fin 128), xb (ix2 r k) = X (ix2 (n r) k))
    (hy : ∀ (r : Fin 5000) (k : Fin 128), yb (ix2 r k) = Y (ix2 (n r) k))
    (hw1a : ∀ (j k : Fin 128), w1a (ix2 j k) = W1 (ix2 j (⟨k.val, by omega⟩ : Fin 256)))
    (hw1b : ∀ (j k : Fin 128), w1b (ix2 j k) = W1 (ix2 j (⟨128 + k.val, by omega⟩ : Fin 256)))
    (hb1 : ∀ q : Fin 128, b1r (ix2 (0 : Fin 1) q) = b1 (ix1 q))
    (r : Fin 5000) (k : Fin 128) :
    hidTile xb yb w1a w1b b1r (ix2 r k) = Cert.Spec.hidden X Y W1 b1 (ix2 (n r) k) := by
  unfold hidTile Cert.Spec.hidden
  rw [maximumf_apply, maximumf_apply, addf_apply, addf_apply, addf_apply,
    matmul_transposed_apply tileDot, matmul_transposed_apply tileDot, bias_tile_apply, hb1,
    dot_transposed_apply hidDot, Cert.Lib.bias_rows_apply, sum_256_split]
  refine congrArg₂ max (congrArg₂ (· + ·) (congrArg₂ (· + ·) ?_ ?_) rfl) ?_
  · refine Finset.sum_congr rfl fun j _ => ?_
    rw [shapeCast_self, shapeCast_self, hx, hw1a, joined_left]
  · refine Finset.sum_congr rfl fun j _ => ?_
    rw [shapeCast_self, shapeCast_self, hy, hw1b, joined_right]
  · exact (broadcastInDim_apply _ Cert.ReferenceIdeal.Gen.bcast_S_S625000x128
      (constant (F := Ideal) Cert.ReferenceIdeal.S_ .f32 0x00000000#32) (ix2 (n r) k) (fun a => a.elim0)
      (fun a => a.elim0)).symm

end Rows

/-- Row `r` of a tile's result is row `n r` of the whole message array, as soon as row `r` of each tile of gathered
    features is row `n r` of the whole gathered array, the two weight blocks are the left and the right half of `W1`'s
    columns, and the bias blocks' one row is the bias vector. -/
theorem msg_rows (n : Fin 5000 → Fin 625000)
    (xb yb : FVec Ideal Cert.KernelIdeal.S5000x128 .f32) (w1a w1b w2 : FVec Ideal Cert.KernelIdeal.S128x128 .f32)
    (b1r b2r : FVec Ideal Cert.KernelIdeal.S1x128 .f32)
    (X Y : FVec Ideal Cert.ReferenceIdeal.S625000x128 .f32) (W1 : FVec Ideal Cert.ReferenceIdeal.S128x256 .f32)
    (b1 : FVec Ideal Cert.ReferenceIdeal.S128 .f32) (W2 : FVec Ideal Cert.ReferenceIdeal.S128x128 .f32)
    (b2 : FVec Ideal Cert.ReferenceIdeal.S128 .f32)
    (hx : ∀ (r : Fin 5000) (k : Fin 128), xb (ix2 r k) = X (ix2 (n r) k))
    (hy : ∀ (r : Fin 5000) (k : Fin 128), yb (ix2 r k) = Y (ix2 (n r) k))
    (hw1a : ∀ (j k : Fin 128), w1a (ix2 j k) = W1 (ix2 j (⟨k.val, by omega⟩ : Fin 256)))
    (hw1b : ∀ (j k : Fin 128), w1b (ix2 j k) = W1 (ix2 j (⟨128 + k.val, by omega⟩ : Fin 256)))
    (hw2 : ∀ (j k : Fin 128), w2 (ix2 j k) = W2 (ix2 j k))
    (hb1 : ∀ q : Fin 128, b1r (ix2 (0 : Fin 1) q) = b1 (ix1 q))
    (hb2 : ∀ q : Fin 128, b2r (ix2 (0 : Fin 1) q) = b2 (ix1 q))
    (r : Fin 5000) (q : Fin 128) :
    Cert.KernelIdeal.Gen.k0_pay1 (F := Ideal) xb yb w1a w1b w2 b1r b2r (ix2 r q)
      = Cert.Spec.msgRef X Y W1 b1 W2 b2 (ix2 (n r) q) := by
  rw [k0_eq]
  unfold Cert.Spec.msgRef
  rw [addf_apply, addf_apply, matmul_transposed_apply tileDot, bias_tile_apply, hb2,
    dot_transposed_apply outDot, Cert.Lib.bias_rows_apply]
  refine congrArg (· + b2 (ix1 q)) (Finset.sum_congr rfl fun k _ => ?_)
  rw [hw2, hidTile_rows n xb yb w1a w1b b1r X Y W1 b1 hx hy hw1a hw1b hb1 r k]

end Cert.MsgRows

end
-- ==== Proof.Region0.lean ====
/-
  The first launch, from blocks to the whole array: the tiles of 5000 edges, 125 of them, fill the message array, and
  every tile holds its rows of the message network's result on all edges.
-/
import proofs.«165444_j7275674599837_1_alg».proof.Proof.Spec
import proofs.«165444_j7275674599837_1_alg».proof.Proof.MsgRows
import proofs.«165444_j7275674599837_1_alg».proof.Proof.Gen.KernelIdeal.Frame
import Idealize.ShloMosaic.Lib.ValueIdx
import Idealize.ShloMosaic.Lib.ValueLayout
import Idealize.ShloMosaic.Lib.Pipeline.Value

set_option maxRecDepth 16384

noncomputable section

namespace Cert.KernelIdeal.Val0

open Idealize.ShloMosaic Idealize.ShloMosaic.TcCoe Idealize.ShloMosaic.ValueIdx Idealize.SL.Sem
open Cert.KernelIdeal Cert.KernelIdeal.Gen
open Idealize.ShloMosaic.Pipeline (Dat Cfg Window)

variable (V : (c : Dev nD) → (b : Ref sig .tc) → Buf (Elt Ideal) ((c : Thread nD τ).loc b))

/-! ## Offsets, block indices and rows -/

/-- The offsets of a whole-block access are zero on both axes. -/
theorem zero_offsets : (![0, 0] : Fin 2 → Nat) = fun _ => 0 :=
  funext fun a => by match a with | ⟨0, _⟩ => rfl | ⟨1, _⟩ => rfl

/-- The launch has 125 grid points. -/
theorem point_lt (t : Fin cfg0.N) : t.val < 125 := lt_of_lt_of_eq t.isLt N_0

/-- Row `r` of the tile of grid point `t` is row `5000 t + r` of an array of 625000 rows. -/
abbrev tileRow (t : Fin cfg0.N) (r : Fin 5000) : Fin 625000 :=
  ⟨5000 * t.val + r.val, by have ht := point_lt t; have hr := r.isLt; omega⟩

/-- The printed index maps over the grid: the two gathered inputs and the output move with the grid point along the
    rows, and the weights and bias rows stay at block `(0, 0)`. -/
theorem block_indices : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0 :=
  (by decide +kernel : ∀ t : Fin grid0.N, _)

/-! ## Each input block, read at an index, is its array read at the matching index -/

/-- Row `r` of the tile of gathered source rows is row `5000 t + r` of the gathered source array. -/
theorem src_tile_apply (c : Dev nD) (t : Fin cfg0.N) (A : FVec Ideal Cert.ReferenceIdeal.S625000x128 .f32)
    (hA : V c main_v10 = A) (r : Fin 5000) (k : Fin 128) :
    (iblk0 V c 0 t : Vec Ideal S5000x128 .f32) (ix2 r k) = A (ix2 (tileRow t r) k) := by
  subst hA
  obtain ⟨e0, e1, -⟩ := block_indices t
  show V c main_v10 (((cfg0.win 0).blk t).view.emb (ix2 r k)) = V c main_v10 (ix2 (tileRow t r) k)
  refine congrArg _ (funext fun a => Fin.ext ?_)
  match a with
  | ⟨0, _⟩ => show win0_0.index t (0 : Fin 2) * 5000 + 1 * r.val = 5000 * t.val + r.val; omega
  | ⟨1, _⟩ => show win0_0.index t (1 : Fin 2) * 128 + 1 * k.val = k.val; omega

/-- Row `r` of the tile of gathered target rows is row `5000 t + r` of the gathered target array. -/
theorem tgt_tile_apply (c : Dev nD) (t : Fin cfg0.N) (A : FVec Ideal Cert.ReferenceIdeal.S625000x128 .f32)
    (hA : V c main_v17 = A) (r : Fin 5000) (k : Fin 128) :
    (iblk0 V c 1 t : Vec Ideal S5000x128 .f32) (ix2 r k) = A (ix2 (tileRow t r) k) := by
  subst hA
  obtain ⟨-, -, e0, e1, -⟩ := block_indices t
  show V c main_v17 (((cfg0.win 1).blk t).view.emb (ix2 r k)) = V c main_v17 (ix2 (tileRow t r) k)
  refine congrArg _ (funext fun a => Fin.ext ?_)
  match a with
  | ⟨0, _⟩ => show win0_1.index t (0 : Fin 2) * 5000 + 1 * r.val = 5000 * t.val + r.val; omega
  | ⟨1, _⟩ => show win0_1.index t (1 : Fin 2) * 128 + 1 * k.val = k.val; omega

/-- The block of the left half of the first weight's columns is that whole array, at every grid point. -/
theorem w1_left_block_apply (c : Dev nD) (t : Fin cfg0.N) (A : FVec Ideal S128x128 .f32)
    (hA : V c main_v18 = A) (j k : Fin 128) :
    (iblk0 V c 2 t : Vec Ideal S128x128 .f32) (ix2 j k) = A (ix2 j k) := by
  subst hA
  obtain ⟨-, -, -, -, e0, e1, -⟩ := block_indices t
  show V c main_v18 (((cfg0.win 2).blk t).view.emb (ix2 j k)) = V c main_v18 (ix2 j k)
  refine congrArg _ (funext fun a => Fin.ext ?_)
  match a with
  | ⟨0, _⟩ => show win0_2.index t (0 : Fin 2) * 128 + 1 * j.val = j.val; omega
  | ⟨1, _⟩ => show win0_2.index t (1 : Fin 2) * 128 + 1 * k.val = k.val; omega

/-- The block of the right half of the first weight's columns is that whole array, at every grid point. -/
theorem w1_right_block_apply (c : Dev nD) (t : Fin cfg0.N) (A : FVec Ideal S128x128 .f32)
    (hA : V c main_v19 = A) (j k : Fin 128) :
    (iblk0 V c 3 t : Vec Ideal S128x128 .f32) (ix2 j k) = A (ix2 j k) := by
  subst hA
  obtain ⟨-, -, -, -, -, -, e0, e1, -⟩ := block_indices t
  show V c main_v19 (((cfg0.win 3).blk t).view.emb (ix2 j k)) = V c main_v19 (ix2 j k)
  refine congrArg _ (funext fun a => Fin.ext ?_)
  match a with
  | ⟨0, _⟩ => show win0_3.index t (0 : Fin 2) * 128 + 1 * j.val = j.val; omega
  | ⟨1, _⟩ => show win0_3.index t (1 : Fin 2) * 128 + 1 * k.val = k.val; omega

/-- The block of the first bias row is that whole one-row array, at every grid point. -/
theorem b1_block_apply (c : Dev nD) (t : Fin cfg0.N) (A : FVec Ideal S1x128 .f32)
    (hA : V c main_v20 = A) (u : Fin 1) (k : Fin 128) :
    (iblk0 V c 4 t : Vec Ideal S1x128 .f32) (ix2 u k) = A (ix2 u k) := by
  subst hA
  obtain ⟨-, -, -, -, -, -, -, -, e0, e1, -⟩ := block_indices t
  show V c main_v20 (((cfg0.win 4).blk t).view.emb (ix2 u k)) = V c main_v20 (ix2 u k)
  refine congrArg _ (funext fun a => Fin.ext ?_)
  match a with
  | ⟨0, _⟩ => show win0_4.index t (0 : Fin 2) * 1 + 1 * u.val = u.val; omega
  | ⟨1, _⟩ => show win0_4.index t (1 : Fin 2) * 128 + 1 * k.val = k.val; omega

/-- The block of the second weight is that whole array, at every grid point. -/
theorem w2_block_apply (c : Dev nD) (t : Fin cfg0.N) (A : FVec Ideal Cert.ReferenceIdeal.S128x128 .f32)
    (hA : V c main_arg4 = A) (j k : Fin 128) :
    (iblk0 V c 5 t : Vec Ideal S128x128 .f32) (ix2 j k) = A (ix2 j k) := by
  subst hA
  obtain ⟨-, -, -, -, -, -, -, -, -, -, e0, e1, -⟩ := block_indices t
  show V c main_arg4 (((cfg0.win 5).blk t).view.emb (ix2 j k)) = V c main_arg4 (ix2 j k)
  refine congrArg _ (funext fun a => Fin.ext ?_)
  match a with
  | ⟨0, _⟩ => show win0_5.index t (0 : Fin 2) * 128 + 1 * j.val = j.val; omega
  | ⟨1, _⟩ => show win0_5.index t (1 : Fin 2) * 128 + 1 * k.val = k.val; omega

/-- The block of the second bias row is that whole one-row array, at every grid point. -/
theorem b2_block_apply (c : Dev nD) (t : Fin cfg0.N) (A : FVec Ideal S1x128 .f32)
    (hA : V c main_v21 = A) (u : Fin 1) (k : Fin 128) :
    (iblk0 V c 6 t : Vec Ideal S1x128 .f32) (ix2 u k) = A (ix2 u k) := by
  subst hA
  obtain ⟨-, -, -, -, -, -, -, -, -, -, -, -, e0, e1, -⟩ := block_indices t
  show V c main_v21 (((cfg0.win 6).blk t).view.emb (ix2 u k)) = V c main_v21 (ix2 u k)
  refine congrArg _ (funext fun a => Fin.ext ?_)
  match a with
  | ⟨0, _⟩ => show win0_6.index t (0 : Fin 2) * 1 + 1 * u.val = u.val; omega
  | ⟨1, _⟩ => show win0_6.index t (1 : Fin 2) * 128 + 1 * k.val = k.val; omega

/-- The output tile of grid point `t` sits at rows `5000 t … 5000 t + 4999` of the message array, all 128 columns. -/
theorem out_tile_emb (t : Fin cfg0.N) (r : Fin 5000) (q : Fin 128) :
    (((cfg0.win 7).blk t).view.emb (ix2 r q) : S625000x128.Idx) = ix2 (tileRow t r) q := by
  obtain ⟨-, -, -, -, -, -, -, -, -, -, -, -, -, -, e0, e1⟩ := block_indices t
  refine funext fun a => Fin.ext ?_
  match a with
  | ⟨0, _⟩ => show win0_7.index t (0 : Fin 2) * 5000 + 1 * r.val = 5000 * t.val + r.val; omega
  | ⟨1, _⟩ => show win0_7.index t (1 : Fin 2) * 128 + 1 * q.val = q.val; omega

/-! ## The host's layout operations read at an index -/

/-- The left half of the first weight's columns, read at `(j, k)`, is the weight at `(j, k)`. -/
theorem left_half_apply (W1 : FVec Ideal Cert.ReferenceIdeal.S128x256 .f32) (h : S128x256.Slices ![0, 0] S128x128)
    (j k : Fin 128) :
    extractStridedSlice S128x128 ![0, 0] W1 h (ix2 j k) = W1 (ix2 j (⟨k.val, by omega⟩ : Fin 256)) := by
  refine (slice2_axis1_eq 0 W1 h j k).trans ?_
  simp only [Nat.zero_add]

/-- The right half of the first weight's columns, read at `(j, k)`, is the weight at `(j, 128 + k)`. -/
theorem right_half_apply (W1 : FVec Ideal Cert.ReferenceIdeal.S128x256 .f32) (h : S128x256.Slices ![0, 128] S128x128)
    (j k : Fin 128) :
    extractStridedSlice S128x128 ![0, 128] W1 h (ix2 j k) = W1 (ix2 j (⟨128 + k.val, by omega⟩ : Fin 256)) :=
  slice2_axis1_eq 128 W1 h j k

/-! ## What a grid point writes back, and the whole array -/

/-- What grid point `t` writes back is tile `t` of the message network's result on all edges. -/
theorem tile_written (c : Dev nD)
    (X Y : FVec Ideal Cert.ReferenceIdeal.S625000x128 .f32) (W1 : FVec Ideal Cert.ReferenceIdeal.S128x256 .f32)
    (b1 : FVec Ideal Cert.ReferenceIdeal.S128 .f32) (W2 : FVec Ideal Cert.ReferenceIdeal.S128x128 .f32)
    (b2 : FVec Ideal Cert.ReferenceIdeal.S128 .f32)
    (hX : V c main_v10 = X) (hY : V c main_v17 = Y)
    (hW1a : V c main_v18 = extractStridedSlice S128x128 ![0, 0] W1 slices_S128x256_S128x128_0_0)
    (hW1b : V c main_v19 = extractStridedSlice S128x128 ![0, 128] W1 slices_S128x256_S128x128_0_128)
    (hb1 : V c main_v20 = shapeCast S1x128 b1 shapeCasts_S128_S1x128)
    (hW2 : V c main_arg4 = W2)
    (hb2 : V c main_v21 = shapeCast S1x128 b2 shapeCasts_S128_S1x128) (t : Fin cfg0.N) :
    (dat0 (F := Ideal) V c).flushed 7 t
      = ((cfg0.win 7).blk t).view.read (Elt Ideal) (Cert.Spec.msgRef X Y W1 b1 W2 b2) := by
  show (cfg0.win 7).cut (grid0.coords t) ((dat0 (F := Ideal) V c).after 7 t) = _
  rw [after0_7]
  unfold out0_7
  rw [View.canon_unit_zero zero_offsets]
  simp only [View.ld_unit_zero (S := S5000x128) zero_offsets, View.ld_unit_zero (S := S128x128) zero_offsets,
    View.ld_unit_zero (S := S1x128) zero_offsets]
  funext j
  obtain ⟨r, q, rfl⟩ : ∃ (r : Fin 5000) (q : Fin 128), j = ix2 r q := ⟨j 0, j 1, eq_ix2 j⟩
  show k0_pay1 (F := Ideal) (iblk0 V c 0 t) (iblk0 V c 1 t) (iblk0 V c 2 t) (iblk0 V c 3 t) (iblk0 V c 5 t)
      (iblk0 V c 4 t) (iblk0 V c 6 t) (ix2 r q)
    = Cert.Spec.msgRef X Y W1 b1 W2 b2 (((cfg0.win 7).blk t).view.emb (ix2 r q))
  refine (Cert.MsgRows.msg_rows (tileRow t) (iblk0 V c 0 t) (iblk0 V c 1 t) (iblk0 V c 2 t) (iblk0 V c 3 t)
    (iblk0 V c 5 t) (iblk0 V c 4 t) (iblk0 V c 6 t) X Y W1 b1 W2 b2
    (fun r k => src_tile_apply V c t X hX r k)
    (fun r k => tgt_tile_apply V c t Y hY r k)
    (fun j k => (w1_left_block_apply V c t _ hW1a j k).trans (left_half_apply W1 _ j k))
    (fun j k => (w1_right_block_apply V c t _ hW1b j k).trans (right_half_apply W1 _ j k))
    (fun j k => w2_block_apply V c t W2 hW2 j k)
    (fun k => (b1_block_apply V c t _ hb1 0 k).trans (shapeCast_a_1a_apply b1 _ 0 k))
    (fun k => (b2_block_apply V c t _ hb2 0 k).trans (shapeCast_a_1a_apply b2 _ 0 k))
    r q).trans ?_
  exact congrArg (Cert.Spec.msgRef X Y W1 b1 W2 b2) (out_tile_emb t r q).symm

/-- An index of the message array is in the tile of grid point `t` iff each coordinate is in the tile's range on its
    axis. -/
theorem mem_tile (t : Fin cfg0.N) (i : S625000x128.Idx) :
    i ∈ ((cfg0.win 7).blk t).view.set
      ↔ ∀ a : Fin 2, win0_7.index t a * S5000x128.size a ≤ (i a).val
          ∧ (i a).val < win0_7.index t a * S5000x128.size a + S5000x128.size a := by
  show i ∈ ((View.whole main_v22).slice (win0_7.rect t)).set ↔ _
  rw [View.set_slice_whole, Rect.mem_set_unit]
  exact Iff.rfl

/-- Every index of the message array is in the tile of the grid point `(row) / 5000`, which is written back. -/
theorem tiles_cover (i : S625000x128.Idx) :
    ∃ t : Fin cfg0.N, (cfg0.win 7).flush t = true ∧ i ∈ ((cfg0.win 7).blk t).view.set := by
  have hi0 : (i 0).val < 625000 := (i 0).isLt
  have hi1 : (i 1).val < 128 := (i 1).isLt
  have ht : (i 0).val / 5000 < cfg0.N := lt_of_lt_of_eq (show (i 0).val / 5000 < 125 by omega) N_0.symm
  obtain ⟨-, -, -, -, -, -, -, -, -, -, -, -, -, -, e0, e1⟩ := block_indices ⟨(i 0).val / 5000, ht⟩
  have e0' : win0_7.index ⟨(i 0).val / 5000, ht⟩ (0 : Fin 2) = (i 0).val / 5000 := e0
  refine ⟨⟨(i 0).val / 5000, ht⟩, flush0_7 _, ?_⟩
  rw [mem_tile]
  intro a
  match a with
  | ⟨0, _⟩ =>
    show win0_7.index ⟨(i 0).val / 5000, ht⟩ (0 : Fin 2) * 5000 ≤ (i 0).val
      ∧ (i 0).val < win0_7.index ⟨(i 0).val / 5000, ht⟩ (0 : Fin 2) * 5000 + 5000
    omega
  | ⟨1, _⟩ =>
    show win0_7.index ⟨(i 0).val / 5000, ht⟩ (1 : Fin 2) * 128 ≤ (i 1).val
      ∧ (i 1).val < win0_7.index ⟨(i 0).val / 5000, ht⟩ (1 : Fin 2) * 128 + 128
    omega

/-- After the first launch the message array holds the message network's result on all edges, computed from the
    arrays the launch found: the gathered source and target rows, the two halves of `W1`, `W2` and the two bias rows. -/
theorem final0 (c : Dev nD)
    (X Y : FVec Ideal Cert.ReferenceIdeal.S625000x128 .f32) (W1 : FVec Ideal Cert.ReferenceIdeal.S128x256 .f32)
    (b1 : FVec Ideal Cert.ReferenceIdeal.S128 .f32) (W2 : FVec Ideal Cert.ReferenceIdeal.S128x128 .f32)
    (b2 : FVec Ideal Cert.ReferenceIdeal.S128 .f32)
    (hX : V c main_v10 = X) (hY : V c main_v17 = Y)
    (hW1a : V c main_v18 = extractStridedSlice S128x128 ![0, 0] W1 slices_S128x256_S128x128_0_0)
    (hW1b : V c main_v19 = extractStridedSlice S128x128 ![0, 128] W1 slices_S128x256_S128x128_0_128)
    (hb1 : V c main_v20 = shapeCast S1x128 b1 shapeCasts_S128_S1x128)
    (hW2 : V c main_arg4 = W2)
    (hb2 : V c main_v21 = shapeCast S1x128 b2 shapeCasts_S128_S1x128) :
    (dat0 (F := Ideal) V c).arrAt 7 cfg0.N = Cert.Spec.msgRef X Y W1 b1 W2 b2 :=
  (dat0 (F := Ideal) V c).arrAt_eq_of_cover 7 (Cert.Spec.msgRef X Y W1 b1 W2 b2)
    (fun t _ => tile_written V c X Y W1 b1 W2 b2 hX hY hW1a hW1b hb1 hW2 hb2 t) tiles_cover

end Cert.KernelIdeal.Val0

end
-- ==== Proof.GruRows.lean ====
/-
  One tile of nodes against all nodes: the gated recurrent update row by row.
-/
import proofs.«165444_j7275674599837_1_alg».proof.Proof.Spec
import proofs.«165444_j7275674599837_1_alg».proof.Proof.LibAffineRows
import proofs.«165444_j7275674599837_1_alg».proof.Proof.Gen.KernelIdeal.Skeleton
import proofs.«165444_j7275674599837_1_alg».proof.Proof.Gen.ReferenceIdeal.Read
import Idealize.ShloMosaic.Lib.ValueIdx
import Idealize.ShloMosaic.Lib.ValueLayout
import Idealize.ShloMosaic.Lib.Pipeline.Value
import Idealize.ShloMosaic.Lib.IdealHost
import Idealize.ShloMosaic.PureOps.Ideal.Laws

noncomputable section

namespace Cert.GruRows

open Idealize.ShloMosaic Idealize.ShloMosaic.ValueIdx

/-! ## The product of a tile by a matrix, and the gates, row by row -/

/-- A matrix unit's product of ANY two operands into zeros, over the dimension numbers of a plain product, at
    `(r, c)`: the textbook sum over the contracted index. -/
theorem matmul_zero_plain {R K M : ℕ} {φ₁ φ₂ : FTy} {d : DotDims ⟨2, ![R, K]⟩ ⟨2, ![K, M]⟩ ⟨2, ![R, M]⟩}
    (h : Cert.Lib.PlainDot d) (x : FVec Ideal ⟨2, ![R, K]⟩ φ₁) (w : FVec Ideal ⟨2, ![K, M]⟩ φ₂) (r : Fin R) (c : Fin M) :
    matmul d none x w (constant ⟨2, ![R, M]⟩ .f32 0x00000000#32) (ix2 r c) = ∑ k : Fin K, x (ix2 r k) * w (ix2 k c) := by
  simp only [matmul]
  rw [Ideal.matmul_constant_zero_apply]
  exact h.sum_eq (fun i => x i) (fun i => w i) r c

/-- ROW BY ROW, for any operands: where row `r` of the tile's left operand is row `n r` of the whole left operand, the
    two right operands agree, and the bias block's one row is the bias vector, the tile's `x · w + bias` at `(r, c)` is
    the whole `X · W + bias` at `(n r, c)`. -/
theorem gates_rows {R N K M : ℕ} {φ₁ φ₂ : FTy}
    {dB : DotDims ⟨2, ![R, K]⟩ ⟨2, ![K, M]⟩ ⟨2, ![R, M]⟩} (hB : Cert.Lib.PlainDot dB)
    {dW : DotDims ⟨2, ![N, K]⟩ ⟨2, ![K, M]⟩ ⟨2, ![N, M]⟩} (hW : Cert.Lib.PlainDot dW)
    (xb : FVec Ideal ⟨2, ![R, K]⟩ φ₁) (wb : FVec Ideal ⟨2, ![K, M]⟩ φ₂)
    (X : FVec Ideal ⟨2, ![N, K]⟩ .f32) (W : FVec Ideal ⟨2, ![K, M]⟩ .f32)
    (b2 : FVec Ideal ⟨2, ![1, M]⟩ .f32) (b : FVec Ideal ⟨1, ![M]⟩ .f32) (n : Fin R → Fin N)
    (hx : ∀ r k, xb (ix2 r k) = X (ix2 (n r) k)) (hw : ∀ k c, wb (ix2 k c) = W (ix2 k c))
    (hb : ∀ q : Fin M, b2 (ix2 (0 : Fin 1) q) = b (ix1 q))
    (hsc : (⟨2, ![1, M]⟩ : Shape).ShapeCasts ⟨2, ![1, M]⟩)
    (hbc : (⟨2, ![1, M]⟩ : Shape).Broadcasts ⟨2, ![R, M]⟩)
    (h1 : (⟨1, ![M]⟩ : Shape).BroadcastsInDim ⟨2, ![1, M]⟩ (![1] : Fin 1 → Fin 2))
    (h2 : (⟨2, ![1, M]⟩ : Shape).BroadcastsInDim ⟨2, ![N, M]⟩ (![0, 1] : Fin 2 → Fin 2)) (r : Fin R) (c : Fin M) :
    addf (matmul dB none xb wb (constant ⟨2, ![R, M]⟩ .f32 0x00000000#32))
        (broadcastTo ⟨2, ![R, M]⟩ (shapeCast ⟨2, ![1, M]⟩ b2 hsc) hbc) (ix2 r c)
      = addf (Host.dotGeneral dW none X W)
          (broadcastInDim ⟨2, ![N, M]⟩ ![0, 1] h2 (broadcastInDim ⟨2, ![1, M]⟩ ![1] h1 b)) (ix2 (n r) c) := by
  rw [addf_apply, addf_apply, matmul_zero_plain hB, Cert.Lib.dotGeneral_apply hW, Cert.Lib.bias_rows_apply,
    broadcastTo_1b_ab_apply, shapeCast_self, hb]
  exact congrArg (· + b (ix1 c)) (Finset.sum_congr rfl fun k _ => by rw [hx, hw])

/-- A band of columns cut out of a tile and out of the whole array: where the tile's row `r` is the whole array's row
    `n r`, so is the band's. -/
theorem band_rows {R N M m : ℕ} {α : Type} (o : ℕ) (g : (⟨2, ![R, M]⟩ : Shape).Idx → α) (G : (⟨2, ![N, M]⟩ : Shape).Idx → α)
    (hK : (⟨2, ![R, M]⟩ : Shape).Slices ![0, o] ⟨2, ![R, m]⟩) (hR : (⟨2, ![N, M]⟩ : Shape).Slices ![0, o] ⟨2, ![N, m]⟩)
    (n : Fin R → Fin N) (hg : ∀ r c, g (ix2 r c) = G (ix2 (n r) c)) (r : Fin R) (q : Fin m) :
    extractStridedSlice ⟨2, ![R, m]⟩ ![0, o] g hK (ix2 r q) = extractStridedSlice ⟨2, ![N, m]⟩ ![0, o] G hR (ix2 (n r) q) :=
  (slice2_axis1_eq o g hK r q).trans ((hg r _).trans (slice2_axis1_eq o G hR (n r) q).symm)

/-! ## The two records of dimension numbers are plain products -/

theorem lhs_tile_0 (i : Cert.KernelIdeal.S2000x384.Idx)
    (q : Cert.KernelIdeal.dot_S2000x128_S128x384_S2000x384_1_0_0_1_n_n.contr.Idx) :
    (Cert.KernelIdeal.dot_S2000x128_S128x384_S2000x384_1_0_0_1_n_n.lhsIdx i q 0).val = (i 0).val := by
  unfold DotDims.lhsIdx
  rw [dif_neg (show ¬(0 : Fin Cert.KernelIdeal.S2000x128.rank) ∈ Cert.KernelIdeal.dot_S2000x128_S128x384_S2000x384_1_0_0_1_n_n.lhsBatch by decide), dif_pos (show (0 : Fin Cert.KernelIdeal.S2000x128.rank) ∈ Cert.KernelIdeal.dot_S2000x128_S128x384_S2000x384_1_0_0_1_n_n.lhsNonContracting by decide)]
  rfl
theorem lhs_tile_1 (i : Cert.KernelIdeal.S2000x384.Idx)
    (q : Cert.KernelIdeal.dot_S2000x128_S128x384_S2000x384_1_0_0_1_n_n.contr.Idx) :
    (Cert.KernelIdeal.dot_S2000x128_S128x384_S2000x384_1_0_0_1_n_n.lhsIdx i q 1).val = (q ⟨0, by decide⟩).val :=
  Cert.KernelIdeal.dot_S2000x128_S128x384_S2000x384_1_0_0_1_n_n.lhsIdx_val_of_single rfl i q
theorem rhs_tile_0 (i : Cert.KernelIdeal.S2000x384.Idx)
    (q : Cert.KernelIdeal.dot_S2000x128_S128x384_S2000x384_1_0_0_1_n_n.contr.Idx) :
    (Cert.KernelIdeal.dot_S2000x128_S128x384_S2000x384_1_0_0_1_n_n.rhsIdx i q 0).val = (q ⟨0, by decide⟩).val :=
  Cert.KernelIdeal.dot_S2000x128_S128x384_S2000x384_1_0_0_1_n_n.rhsIdx_val_of_single rfl i q
theorem rhs_tile_1 (i : Cert.KernelIdeal.S2000x384.Idx)
    (q : Cert.KernelIdeal.dot_S2000x128_S128x384_S2000x384_1_0_0_1_n_n.contr.Idx) :
    (Cert.KernelIdeal.dot_S2000x128_S128x384_S2000x384_1_0_0_1_n_n.rhsIdx i q 1).val = (i 1).val := by
  unfold DotDims.rhsIdx
  rw [dif_neg (show ¬(1 : Fin Cert.KernelIdeal.S128x384.rank) ∈ Cert.KernelIdeal.dot_S2000x128_S128x384_S2000x384_1_0_0_1_n_n.rhsBatch by decide), dif_pos (show (1 : Fin Cert.KernelIdeal.S128x384.rank) ∈ Cert.KernelIdeal.dot_S2000x128_S128x384_S2000x384_1_0_0_1_n_n.rhsNonContracting by decide)]
  rfl

/-- The tile's product is a plain `[2000, 128] × [128, 384]` one. -/
theorem tile_plain : Cert.Lib.PlainDot (R := 2000) (K := 128) (M := 384) Cert.KernelIdeal.dot_S2000x128_S128x384_S2000x384_1_0_0_1_n_n :=
  ⟨rfl, rfl, lhs_tile_0, lhs_tile_1, rhs_tile_0, rhs_tile_1⟩

/-- The whole product is a plain `[50000, 128] × [128, 384]` one. -/
theorem whole_plain : Cert.Lib.PlainDot (R := 50000) (K := 128) (M := 384) Cert.ReferenceIdeal.dot_S50000x128_S128x384_S50000x384_1_0_0_1_n_n :=
  ⟨rfl, rfl, Cert.ReferenceIdeal.Read.lhs_main_v34_0, Cert.ReferenceIdeal.Read.lhs_main_v34_1,
    Cert.ReferenceIdeal.Read.rhs_main_v34_0, Cert.ReferenceIdeal.Read.rhs_main_v34_1⟩

/-! ## The pointwise functions -/

theorem tanh_apply {s : Shape} {φ : FTy} (a : FVec Ideal s φ) (i : s.Idx) : tanh a i = Ideal.tanh (a i) := rfl

theorem logistic_apply {s : Shape} {φ : FTy} (a : FVec Ideal s φ) (i : s.Idx) : logistic a i = Ideal.logistic (a i) := rfl

theorem hostTanh_apply {s : Shape} {φ : FTy} (a : FVec Ideal s φ) (i : s.Idx) : Host.tanh a i = Ideal.tanh (a i) := rfl

/-- The reference's constant one is the extended real one at every node and lane. -/
theorem ones_apply (j : Cert.ReferenceIdeal.S50000x128.Idx) : Cert.Spec.ones j = 1 := by
  unfold Cert.Spec.ones
  rw [broadcastInDim_scalar_apply, constant_apply, Ideal.ofBits_one_f32]

/-- The quotient `1 / (1 + e^(-u))` the reference spells is the logistic function of the extended reals. -/
theorem sigm_apply (u : FVec Ideal Cert.ReferenceIdeal.S50000x128 .f32) (j : Cert.ReferenceIdeal.S50000x128.Idx) :
    Cert.Spec.sigm u j = Ideal.logistic (u j) := by
  show Ideal.div (Cert.Spec.ones j) (Cert.Spec.ones j + Ideal.exp (-(u j))) = Ideal.div 1 (1 + Ideal.exp (-(u j)))
  rw [ones_apply]

/-- Row `r` of a tile's result is row `n r` of the whole updated state, as soon as row `r` of the tile of summed messages
    and of the tile of old states is row `n r` of the whole arrays, the weight blocks are the whole weights, and the
    bias blocks' one row is the bias vector. -/
theorem gru_rows (n : Fin 2000 → Fin 50000)
    (ab hb : FVec Ideal Cert.KernelIdeal.S2000x128 .f32) (wih whh : FVec Ideal Cert.KernelIdeal.S384x128 .f32)
    (bihr bhhr : FVec Ideal Cert.KernelIdeal.S1x384 .f32)
    (A H : FVec Ideal Cert.ReferenceIdeal.S50000x128 .f32) (Wih Whh : FVec Ideal Cert.ReferenceIdeal.S384x128 .f32)
    (bih bhh : FVec Ideal Cert.ReferenceIdeal.S384 .f32)
    (ha : ∀ (r : Fin 2000) (k : Fin 128), ab (ix2 r k) = A (ix2 (n r) k))
    (hh : ∀ (r : Fin 2000) (k : Fin 128), hb (ix2 r k) = H (ix2 (n r) k))
    (hwih : ∀ (j : Fin 384) (k : Fin 128), wih (ix2 j k) = Wih (ix2 j k))
    (hwhh : ∀ (j : Fin 384) (k : Fin 128), whh (ix2 j k) = Whh (ix2 j k))
    (hbih : ∀ q : Fin 384, bihr (ix2 (0 : Fin 1) q) = bih (ix1 q))
    (hbhh : ∀ q : Fin 384, bhhr (ix2 (0 : Fin 1) q) = bhh (ix1 q))
    (r : Fin 2000) (q : Fin 128) :
    Cert.KernelIdeal.Gen.k1_pay1 (F := Ideal) ab hb wih whh bihr bhhr (ix2 r q)
      = Cert.Spec.gruRef A H Wih bih Whh bhh (ix2 (n r) q) := by
  -- the tile's left operands are rows of the whole arrays; the transposed weights agree
  have hxa : ∀ (r : Fin 2000) (k : Fin 128), (truncf .bf16 (shapeCast Cert.KernelIdeal.S2000x128 ab Cert.KernelIdeal.Gen.shapeCasts_S2000x128_S2000x128) Cert.KernelIdeal.Gen.bitsLt_bf16_f32) (ix2 r k) = A (ix2 (n r) k) := fun r k => by
    rw [truncf_apply, shapeCast_self]; exact ha r k
  have hxh : ∀ (r : Fin 2000) (k : Fin 128), (truncf .bf16 hb Cert.KernelIdeal.Gen.bitsLt_bf16_f32) (ix2 r k) = H (ix2 (n r) k) := fun r k => hh r k
  have hwi : ∀ (k : Fin 128) (c : Fin 384), (transpose Cert.KernelIdeal.S128x384 [1, 0] (truncf .bf16 wih Cert.KernelIdeal.Gen.bitsLt_bf16_f32) Cert.KernelIdeal.Gen.transposes_S384x128_p1_0_S128x384) (ix2 k c) = (transpose Cert.ReferenceIdeal.S128x384 [1, 0] Wih Cert.ReferenceIdeal.Gen.transposes_S384x128_S128x384_1_0) (ix2 k c) := fun k c => by
    rw [transpose_ix2_apply, transpose_ix2_apply, truncf_apply]; exact hwih c k
  have hwh : ∀ (k : Fin 128) (c : Fin 384), (transpose Cert.KernelIdeal.S128x384 [1, 0] (truncf .bf16 whh Cert.KernelIdeal.Gen.bitsLt_bf16_f32) Cert.KernelIdeal.Gen.transposes_S384x128_p1_0_S128x384) (ix2 k c) = (transpose Cert.ReferenceIdeal.S128x384 [1, 0] Whh Cert.ReferenceIdeal.Gen.transposes_S384x128_S128x384_1_0) (ix2 k c) := fun k c => by
    rw [transpose_ix2_apply, transpose_ix2_apply, truncf_apply]; exact hwhh c k
  -- the two tiles of gate pre-activations, row by row
  have hgi : ∀ (r : Fin 2000) (c : Fin 384), (addf (matmul Cert.KernelIdeal.dot_S2000x128_S128x384_S2000x384_1_0_0_1_n_n none (truncf .bf16 (shapeCast Cert.KernelIdeal.S2000x128 ab Cert.KernelIdeal.Gen.shapeCasts_S2000x128_S2000x128) Cert.KernelIdeal.Gen.bitsLt_bf16_f32) (transpose Cert.KernelIdeal.S128x384 [1, 0] (truncf .bf16 wih Cert.KernelIdeal.Gen.bitsLt_bf16_f32) Cert.KernelIdeal.Gen.transposes_S384x128_p1_0_S128x384) (constant Cert.KernelIdeal.S2000x384 .f32 0x00000000#32)) (broadcastTo Cert.KernelIdeal.S2000x384 (shapeCast Cert.KernelIdeal.S1x384 bihr Cert.KernelIdeal.Gen.shapeCasts_S1x384_S1x384) Cert.KernelIdeal.Gen.broadcasts_S1x384_S2000x384)) (ix2 r c) = Cert.Spec.gates A Wih bih (ix2 (n r) c) :=
    fun r c => gates_rows tile_plain whole_plain _ _ A _ bihr bih n hxa hwi hbih _ _ _ _ r c
  have hgh : ∀ (r : Fin 2000) (c : Fin 384), (addf (matmul Cert.KernelIdeal.dot_S2000x128_S128x384_S2000x384_1_0_0_1_n_n none (truncf .bf16 hb Cert.KernelIdeal.Gen.bitsLt_bf16_f32) (transpose Cert.KernelIdeal.S128x384 [1, 0] (truncf .bf16 whh Cert.KernelIdeal.Gen.bitsLt_bf16_f32) Cert.KernelIdeal.Gen.transposes_S384x128_p1_0_S128x384) (constant Cert.KernelIdeal.S2000x384 .f32 0x00000000#32)) (broadcastTo Cert.KernelIdeal.S2000x384 (shapeCast Cert.KernelIdeal.S1x384 bhhr Cert.KernelIdeal.Gen.shapeCasts_S1x384_S1x384) Cert.KernelIdeal.Gen.broadcasts_S1x384_S2000x384)) (ix2 r c) = Cert.Spec.gates H Whh bhh (ix2 (n r) c) :=
    fun r c => gates_rows tile_plain whole_plain _ _ H _ bhhr bhh n hxh hwh hbhh _ _ _ _ r c
  unfold Cert.KernelIdeal.Gen.k1_pay1 Cert.Spec.gruRef
  simp only [addf_apply, mulf_apply, subf_apply, broadcast_apply, tanh_apply, logistic_apply, hostTanh_apply, sigm_apply,
    ones_apply]
  rw [Ideal.ofBits_def, Ideal.ofBits_one_f32, hh r q,
    band_rows 0 _ (Cert.Spec.gates A Wih bih) Cert.KernelIdeal.Gen.slices_S2000x384_o0_0_S2000x128 Cert.ReferenceIdeal.Gen.slices_S50000x384_S50000x128_0_0 n hgi r q,
    band_rows 128 _ (Cert.Spec.gates A Wih bih) Cert.KernelIdeal.Gen.slices_S2000x384_o0_128_S2000x128 Cert.ReferenceIdeal.Gen.slices_S50000x384_S50000x128_0_128 n hgi r q,
    band_rows 256 _ (Cert.Spec.gates A Wih bih) Cert.KernelIdeal.Gen.slices_S2000x384_o0_256_S2000x128 Cert.ReferenceIdeal.Gen.slices_S50000x384_S50000x128_0_256 n hgi r q,
    band_rows 0 _ (Cert.Spec.gates H Whh bhh) Cert.KernelIdeal.Gen.slices_S2000x384_o0_0_S2000x128 Cert.ReferenceIdeal.Gen.slices_S50000x384_S50000x128_0_0 n hgh r q,
    band_rows 128 _ (Cert.Spec.gates H Whh bhh) Cert.KernelIdeal.Gen.slices_S2000x384_o0_128_S2000x128 Cert.ReferenceIdeal.Gen.slices_S50000x384_S50000x128_0_128 n hgh r q,
    band_rows 256 _ (Cert.Spec.gates H Whh bhh) Cert.KernelIdeal.Gen.slices_S2000x384_o0_256_S2000x128 Cert.ReferenceIdeal.Gen.slices_S50000x384_S50000x128_0_256 n hgh r q]

end Cert.GruRows

end
-- ==== Proof.Region1.lean ====
/-
  The second launch, from blocks to the whole array: the tiles of 2000 nodes, 25 of them, fill the result, and every
  tile holds its rows of the gated recurrent update of all nodes.
-/
import proofs.«165444_j7275674599837_1_alg».proof.Proof.Spec
import proofs.«165444_j7275674599837_1_alg».proof.Proof.GruRows
import proofs.«165444_j7275674599837_1_alg».proof.Proof.Gen.KernelIdeal.Frame
import Idealize.ShloMosaic.Lib.ValueIdx
import Idealize.ShloMosaic.Lib.ValueLayout
import Idealize.ShloMosaic.Lib.Pipeline.Value

set_option maxRecDepth 16384

noncomputable section

namespace Cert.KernelIdeal.Val1

open Idealize.ShloMosaic Idealize.ShloMosaic.TcCoe Idealize.ShloMosaic.ValueIdx Idealize.SL.Sem
open Cert.KernelIdeal Cert.KernelIdeal.Gen
open Idealize.ShloMosaic.Pipeline (Dat Cfg Window)

variable (V : (c : Dev nD) → (b : Ref sig .tc) → Buf (Elt Ideal) ((c : Thread nD τ).loc b))

/-- A block's offsets inside its staging buffer are all zero. -/
theorem zero_offsets : (![0, 0] : Fin 2 → Nat) = fun _ => 0 :=
  funext fun a => match a with | ⟨0, _⟩ => rfl | ⟨1, _⟩ => rfl

/-- The launch has 25 grid points. -/
theorem point_lt (t : Fin cfg1.N) : t.val < 25 := lt_of_lt_of_eq t.isLt N_1

/-- Where each window's block sits at grid point `t`: the tiles of summed messages, of old states and of the result are
    tile `t` of their arrays along the node axis; the weights and the bias rows are always their one whole block. -/
theorem block_indices : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- Row `r` of the tile of summed messages at point `t` is row `2000 t + r` of the array of summed messages. -/
theorem agg_tile (c : Dev nD) (t : Fin cfg1.N) (r : Fin 2000) (k : Fin 128) (h : 2000 * t.val + r.val < 50000) :
    (iblk1 V c 0 t : Vec Ideal S2000x128 .f32) (ix2 r k) = V c main_v25 (ix2 ⟨2000 * t.val + r.val, h⟩ k) := by
  obtain ⟨e0, e1, -⟩ := block_indices t
  show V c main_v25 (((cfg1.win 0).blk t).view.emb (ix2 r k)) = V c main_v25 (ix2 ⟨2000 * t.val + r.val, h⟩ k)
  refine congrArg _ ?_
  funext a; apply Fin.ext
  match a with
  | ⟨0, _⟩ => show win1_0.index t (0 : Fin 2) * 2000 + 1 * r.val = 2000 * t.val + r.val; omega
  | ⟨1, _⟩ => show win1_0.index t (1 : Fin 2) * 128 + 1 * k.val = k.val; omega

/-- Row `r` of the tile of old states at point `t` is row `2000 t + r` of the array of old states. -/
theorem feat_tile (c : Dev nD) (t : Fin cfg1.N) (r : Fin 2000) (k : Fin 128) (h : 2000 * t.val + r.val < 50000) :
    (iblk1 V c 1 t : Vec Ideal S2000x128 .f32) (ix2 r k) = V c main_arg0 (ix2 ⟨2000 * t.val + r.val, h⟩ k) := by
  obtain ⟨-, -, e0, e1, -⟩ := block_indices t
  show V c main_arg0 (((cfg1.win 1).blk t).view.emb (ix2 r k)) = V c main_arg0 (ix2 ⟨2000 * t.val + r.val, h⟩ k)
  refine congrArg _ ?_
  funext a; apply Fin.ext
  match a with
  | ⟨0, _⟩ => show win1_1.index t (0 : Fin 2) * 2000 + 1 * r.val = 2000 * t.val + r.val; omega
  | ⟨1, _⟩ => show win1_1.index t (1 : Fin 2) * 128 + 1 * k.val = k.val; omega

/-- The block of the input weight is the whole weight. -/
theorem wih_block (c : Dev nD) (t : Fin cfg1.N) (j : Fin 384) (k : Fin 128) :
    (iblk1 V c 2 t : Vec Ideal S384x128 .f32) (ix2 j k) = V c main_arg6 (ix2 j k) := by
  obtain ⟨-, -, -, -, e0, e1, -⟩ := block_indices t
  show V c main_arg6 (((cfg1.win 2).blk t).view.emb (ix2 j k)) = V c main_arg6 (ix2 j k)
  refine congrArg _ ?_
  funext a; apply Fin.ext
  match a with
  | ⟨0, _⟩ => show win1_2.index t (0 : Fin 2) * 384 + 1 * j.val = j.val; omega
  | ⟨1, _⟩ => show win1_2.index t (1 : Fin 2) * 128 + 1 * k.val = k.val; omega

/-- The block of the input bias row is the whole row. -/
theorem bih_block (c : Dev nD) (t : Fin cfg1.N) (u : Fin 1) (q : Fin 384) :
    (iblk1 V c 3 t : Vec Ideal S1x384 .f32) (ix2 u q) = V c main_v26 (ix2 u q) := by
  obtain ⟨-, -, -, -, -, -, e0, e1, -⟩ := block_indices t
  show V c main_v26 (((cfg1.win 3).blk t).view.emb (ix2 u q)) = V c main_v26 (ix2 u q)
  refine congrArg _ ?_
  funext a; apply Fin.ext
  match a with
  | ⟨0, _⟩ => show win1_3.index t (0 : Fin 2) * 1 + 1 * u.val = u.val; omega
  | ⟨1, _⟩ => show win1_3.index t (1 : Fin 2) * 384 + 1 * q.val = q.val; omega

/-- The block of the state weight is the whole weight. -/
theorem whh_block (c : Dev nD) (t : Fin cfg1.N) (j : Fin 384) (k : Fin 128) :
    (iblk1 V c 4 t : Vec Ideal S384x128 .f32) (ix2 j k) = V c main_arg8 (ix2 j k) := by
  obtain ⟨-, -, -, -, -, -, -, -, e0, e1, -⟩ := block_indices t
  show V c main_arg8 (((cfg1.win 4).blk t).view.emb (ix2 j k)) = V c main_arg8 (ix2 j k)
  refine congrArg _ ?_
  funext a; apply Fin.ext
  match a with
  | ⟨0, _⟩ => show win1_4.index t (0 : Fin 2) * 384 + 1 * j.val = j.val; omega
  | ⟨1, _⟩ => show win1_4.index t (1 : Fin 2) * 128 + 1 * k.val = k.val; omega

/-- The block of the state bias row is the whole row. -/
theorem bhh_block (c : Dev nD) (t : Fin cfg1.N) (u : Fin 1) (q : Fin 384) :
    (iblk1 V c 5 t : Vec Ideal S1x384 .f32) (ix2 u q) = V c main_v27 (ix2 u q) := by
  obtain ⟨-, -, -, -, -, -, -, -, -, -, e0, e1, -⟩ := block_indices t
  show V c main_v27 (((cfg1.win 5).blk t).view.emb (ix2 u q)) = V c main_v27 (ix2 u q)
  refine congrArg _ ?_
  funext a; apply Fin.ext
  match a with
  | ⟨0, _⟩ => show win1_5.index t (0 : Fin 2) * 1 + 1 * u.val = u.val; omega
  | ⟨1, _⟩ => show win1_5.index t (1 : Fin 2) * 384 + 1 * q.val = q.val; omega

/-- What grid point `t` writes back is tile `t` of the gated recurrent update of all nodes. -/
theorem tile_written (c : Dev nD)
    (A H : FVec Ideal Cert.ReferenceIdeal.S50000x128 .f32) (Wih Whh : FVec Ideal Cert.ReferenceIdeal.S384x128 .f32)
    (bih bhh : FVec Ideal Cert.ReferenceIdeal.S384 .f32)
    (hA : V c main_v25 = A) (hH : V c main_arg0 = H)
    (hWih : V c main_arg6 = Wih) (hbih : V c main_v26 = shapeCast S1x384 bih shapeCasts_S384_S1x384)
    (hWhh : V c main_arg8 = Whh) (hbhh : V c main_v27 = shapeCast S1x384 bhh shapeCasts_S384_S1x384)
    (t : Fin cfg1.N) :
    (dat1 (F := Ideal) V c).flushed 6 t
      = ((cfg1.win 6).blk t).view.read (Elt Ideal) (Cert.Spec.gruRef A H Wih bih Whh bhh) := by
  have ht : t.val < 25 := point_lt t
  show (cfg1.win 6).cut (grid1.coords t) ((dat1 (F := Ideal) V c).after 6 t) = _
  rw [after1_6]
  unfold out1_6
  rw [View.canon_unit_zero zero_offsets]
  simp only [View.ld_unit_zero (S := S2000x128) zero_offsets, View.ld_unit_zero (S := S384x128) zero_offsets,
    View.ld_unit_zero (S := S1x384) zero_offsets]
  funext j
  obtain ⟨r, q, rfl⟩ : ∃ (r : Fin 2000) (q : Fin 128), j = ix2 r q := ⟨j 0, j 1, eq_ix2 j⟩
  have hr : r.val < 2000 := r.isLt
  have hrow : ∀ r' : Fin 2000, 2000 * t.val + r'.val < 50000 := fun r' => by have := r'.isLt; omega
  show k1_pay1 (F := Ideal) (iblk1 V c 0 t) (iblk1 V c 1 t) (iblk1 V c 2 t) (iblk1 V c 4 t) (iblk1 V c 3 t)
      (iblk1 V c 5 t) (ix2 r q)
    = Cert.Spec.gruRef A H Wih bih Whh bhh (((cfg1.win 6).blk t).view.emb (ix2 r q))
  have hemb : ((cfg1.win 6).blk t).view.emb (ix2 r q) = ix2 ⟨2000 * t.val + r.val, hrow r⟩ q := by
    obtain ⟨-, -, -, -, -, -, -, -, -, -, -, -, e0, e1⟩ := block_indices t
    funext a; apply Fin.ext
    match a with
    | ⟨0, _⟩ => show win1_6.index t (0 : Fin 2) * 2000 + 1 * r.val = 2000 * t.val + r.val; omega
    | ⟨1, _⟩ => show win1_6.index t (1 : Fin 2) * 128 + 1 * q.val = q.val; omega
  rw [hemb]
  exact Cert.GruRows.gru_rows (n := fun r' => ⟨2000 * t.val + r'.val, hrow r'⟩)
    (iblk1 V c 0 t) (iblk1 V c 1 t) (iblk1 V c 2 t) (iblk1 V c 4 t) (iblk1 V c 3 t) (iblk1 V c 5 t)
    A H Wih Whh bih bhh
    (fun r' k => (agg_tile V c t r' k (hrow r')).trans (congrFun hA _))
    (fun r' k => (feat_tile V c t r' k (hrow r')).trans (congrFun hH _))
    (fun j' k => (wih_block V c t j' k).trans (congrFun hWih _))
    (fun j' k => (whh_block V c t j' k).trans (congrFun hWhh _))
    (fun q' => ((bih_block V c t 0 q').trans (congrFun hbih _)).trans
      (shapeCast_a_1a_apply bih shapeCasts_S384_S1x384 0 q'))
    (fun q' => ((bhh_block V c t 0 q').trans (congrFun hbhh _)).trans
      (shapeCast_a_1a_apply bhh shapeCasts_S384_S1x384 0 q'))
    r q

/-- An index of the result array lies in point `t`'s tile iff each coordinate lies in the tile's range on its axis. -/
theorem mem_tile (t : Fin cfg1.N) (i : S50000x128.Idx) :
    i ∈ ((cfg1.win 6).blk t).view.set ↔ ∀ a : Fin 2, win1_6.index t a * S2000x128.size a ≤ (i a).val
      ∧ (i a).val < win1_6.index t a * S2000x128.size a + S2000x128.size a := by
  show i ∈ ((View.whole main_v28).slice (win1_6.rect t)).set ↔ _
  rw [View.set_slice_whole, Rect.mem_set_unit]
  exact Iff.rfl

/-- Every index of the result array lies in a tile that is written back: row `n` lies in tile `n / 2000`, and a tile
    holds all 128 lanes. -/
theorem tiles_cover (i : S50000x128.Idx) :
    ∃ t : Fin cfg1.N, (cfg1.win 6).flush t = true ∧ i ∈ ((cfg1.win 6).blk t).view.set := by
  have hi0 : (i 0).val < 50000 := (i 0).isLt
  have hi1 : (i 1).val < 128 := (i 1).isLt
  have hlt : (i 0).val / 2000 < cfg1.N := lt_of_lt_of_eq (show (i 0).val / 2000 < 25 by omega) N_1.symm
  refine ⟨⟨(i 0).val / 2000, hlt⟩, flush1_6 _, ?_⟩
  rw [mem_tile]
  obtain ⟨-, -, -, -, -, -, -, -, -, -, -, -, e0, e1⟩ := block_indices ⟨(i 0).val / 2000, hlt⟩
  intro a
  match a with
  | ⟨0, _⟩ =>
    show win1_6.index ⟨(i 0).val / 2000, hlt⟩ (0 : Fin 2) * 2000 ≤ (i 0).val
      ∧ (i 0).val < win1_6.index ⟨(i 0).val / 2000, hlt⟩ (0 : Fin 2) * 2000 + 2000
    rw [e0]
    show (i 0).val / 2000 * 2000 ≤ (i 0).val ∧ (i 0).val < (i 0).val / 2000 * 2000 + 2000
    omega
  | ⟨1, _⟩ =>
    show win1_6.index ⟨(i 0).val / 2000, hlt⟩ (1 : Fin 2) * 128 ≤ (i 1).val
      ∧ (i 1).val < win1_6.index ⟨(i 0).val / 2000, hlt⟩ (1 : Fin 2) * 128 + 128
    rw [e1]
    omega

/-- After the second launch the result array holds the gated recurrent update of all nodes, computed from the arrays
    the launch found: the summed messages, the old states, the two weights and the two bias rows. -/
theorem final1 (c : Dev nD)
    (A H : FVec Ideal Cert.ReferenceIdeal.S50000x128 .f32) (Wih Whh : FVec Ideal Cert.ReferenceIdeal.S384x128 .f32)
    (bih bhh : FVec Ideal Cert.ReferenceIdeal.S384 .f32)
    (hA : V c main_v25 = A) (hH : V c main_arg0 = H)
    (hWih : V c main_arg6 = Wih) (hbih : V c main_v26 = shapeCast S1x384 bih shapeCasts_S384_S1x384)
    (hWhh : V c main_arg8 = Whh) (hbhh : V c main_v27 = shapeCast S1x384 bhh shapeCasts_S384_S1x384) :
    (dat1 (F := Ideal) V c).arrAt 6 cfg1.N = Cert.Spec.gruRef A H Wih bih Whh bhh :=
  (dat1 (F := Ideal) V c).arrAt_eq_of_cover 6 (Cert.Spec.gruRef A H Wih bih Whh bhh)
    (fun t _ => tile_written V c A H Wih Whh bih bhh hA hH hWih hbih hWhh hbhh t) tiles_cover

end Cert.KernelIdeal.Val1

end
-- ==== Proof.HostGlue.lean ====
/-
  What the host operations around the two launches leave in the arrays the launches read: the gathered rows, the two
  halves of `W1`, the bias vectors as rows, and, between the launches, every edge's message added into its target node's row.
-/
import proofs.«165444_j7275674599837_1_alg».proof.Proof.SpecWhole
import proofs.«165444_j7275674599837_1_alg».proof.Proof.Gen.KernelIdeal.Frame
import proofs.«165444_j7275674599837_1_alg».proof.Proof.Region0
import proofs.«165444_j7275674599837_1_alg».proof.Proof.Region1
import Idealize.ShloMosaic.Lib.StableHlo.Run

set_option maxRecDepth 16384

noncomputable section

namespace Cert.KernelIdeal.Val

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg)

/-! ## Before the first launch -/

/-- The first launch finds the gathered source rows in its first array. -/
theorem entry0_src (c : Dev nD) : V1 m ρ c main_v10 = Cert.Spec.srcRows (m ((c : Thread nD τ).loc main_arg0)) (m ((c : Thread nD τ).loc main_arg1)) := by
  show StableHlo.after hostOps0 (W0 m ρ c) (Proc.devRef .tc main_v10) = _
  after_results_simp <;> rfl

/-- and the gathered target rows in its second. -/
theorem entry0_tgt (c : Dev nD) : V1 m ρ c main_v17 = Cert.Spec.tgtRows (m ((c : Thread nD τ).loc main_arg0)) (m ((c : Thread nD τ).loc main_arg1)) := by
  show StableHlo.after hostOps0 (W0 m ρ c) (Proc.devRef .tc main_v17) = _
  after_results_simp <;> rfl

/-- The left half of `W1`'s columns. -/
theorem entry0_w1a (c : Dev nD) : V1 m ρ c main_v18 = extractStridedSlice S128x128 ![0, 0] (m ((c : Thread nD τ).loc main_arg2)) slices_S128x256_S128x128_0_0 := by
  show StableHlo.after hostOps0 (W0 m ρ c) (Proc.devRef .tc main_v18) = _
  after_results_simp <;> rfl

/-- The right half of `W1`'s columns. -/
theorem entry0_w1b (c : Dev nD) : V1 m ρ c main_v19 = extractStridedSlice S128x128 ![0, 128] (m ((c : Thread nD τ).loc main_arg2)) slices_S128x256_S128x128_0_128 := by
  show StableHlo.after hostOps0 (W0 m ρ c) (Proc.devRef .tc main_v19) = _
  after_results_simp <;> rfl

/-- `b1` as a row. -/
theorem entry0_b1 (c : Dev nD) : V1 m ρ c main_v20 = shapeCast S1x128 (m ((c : Thread nD τ).loc main_arg3)) shapeCasts_S128_S1x128 := by
  show StableHlo.after hostOps0 (W0 m ρ c) (Proc.devRef .tc main_v20) = _
  after_results_simp <;> rfl

/-- `W2` as launched. -/
theorem entry0_w2 (c : Dev nD) : V1 m ρ c main_arg4 = (m ((c : Thread nD τ).loc main_arg4)) := by
  show StableHlo.after hostOps0 (W0 m ρ c) (Proc.devRef .tc main_arg4) = _
  after_results_simp <;> rfl

/-- `b2` as a row. -/
theorem entry0_b2 (c : Dev nD) : V1 m ρ c main_v21 = shapeCast S1x128 (m ((c : Thread nD τ).loc main_arg5)) shapeCasts_S128_S1x128 := by
  show StableHlo.after hostOps0 (W0 m ρ c) (Proc.devRef .tc main_v21) = _
  after_results_simp <;> rfl

/-- So after the first launch its output array holds every edge's message. -/
theorem mid_msg (c : Dev nD) : W2 m ρ c (Proc.devRef .tc main_v22)
    = Cert.Spec.msgRef (Cert.Spec.srcRows (m ((c : Thread nD τ).loc main_arg0)) (m ((c : Thread nD τ).loc main_arg1))) (Cert.Spec.tgtRows (m ((c : Thread nD τ).loc main_arg0)) (m ((c : Thread nD τ).loc main_arg1))) (m ((c : Thread nD τ).loc main_arg2)) (m ((c : Thread nD τ).loc main_arg3)) (m ((c : Thread nD τ).loc main_arg4)) (m ((c : Thread nD τ).loc main_arg5)) :=
  (W2_arr m ρ c 7).trans (Cert.KernelIdeal.Val0.final0 (V1 m ρ) c _ _ _ _ _ _ (entry0_src m ρ c) (entry0_tgt m ρ c) (entry0_w1a m ρ c)
    (entry0_w1b m ρ c) (entry0_b1 m ρ c) (entry0_w2 m ρ c) (entry0_b2 m ρ c))

/-! ## Between the launches -/

/-- The edges' target column, computed before the first launch, is still there after it. -/
theorem mid_tgt (c : Dev nD) : W2 m ρ c (Proc.devRef .tc main_v3)
    = shapeCast S625000 (extractStridedSlice S625000x1 ![0, 2] (m ((c : Thread nD τ).loc main_arg1)) slices_S625000x3_S625000x1_0_2) shapeCasts_S625000x1_S625000 := by
  rw [W2_of_ne m ρ c main_v3 (by decide)]
  show StableHlo.after hostOps0 (W0 m ρ c) (Proc.devRef .tc main_v3) = _
  after_results_simp <;> rfl

/-- An argument no host operation writes and the first launch does not own is, at the second launch's entry, as launched. -/
theorem entry1_of_untouched (c : Dev nD) (b : Ref sig .tc)
    (h1 : StableHlo.after hostOps1 (W2 m ρ c) (Proc.devRef .tc b) = W2 m ρ c (Proc.devRef .tc b))
    (h2 : ∀ w, Pipeline.arrRef spec0 w ≠ b)
    (h0 : StableHlo.after hostOps0 (W0 m ρ c) (Proc.devRef .tc b) = W0 m ρ c (Proc.devRef .tc b)) :
    V3 m ρ c b = m ((c : Thread nD τ).loc b) :=
  h1.trans ((W2_of_ne m ρ c b h2).trans h0)

/-- The second launch finds, in its first array, every edge's message added into its target node's row of zeros. -/
theorem entry1_agg (c : Dev nD) : V3 m ρ c main_v25
    = Host.scatterAdd Cert.ReferenceIdeal.scatter_S50000x128_S625000x1_S625000x128_1_0_0_1 Cert.Spec.zeros (Cert.Spec.tgtIdx (m ((c : Thread nD τ).loc main_arg1)))
        (Cert.Spec.msgRef (Cert.Spec.srcRows (m ((c : Thread nD τ).loc main_arg0)) (m ((c : Thread nD τ).loc main_arg1))) (Cert.Spec.tgtRows (m ((c : Thread nD τ).loc main_arg0)) (m ((c : Thread nD τ).loc main_arg1))) (m ((c : Thread nD τ).loc main_arg2)) (m ((c : Thread nD τ).loc main_arg3)) (m ((c : Thread nD τ).loc main_arg4)) (m ((c : Thread nD τ).loc main_arg5))) := by
  show StableHlo.after hostOps1 (W2 m ρ c) (Proc.devRef .tc main_v25) = _
  after_results_simp
  rw [mid_msg, mid_tgt]
  rfl

/-- The old node states, as launched. -/
theorem entry1_h (c : Dev nD) : V3 m ρ c main_arg0 = (m ((c : Thread nD τ).loc main_arg0)) :=
  entry1_of_untouched m ρ c main_arg0 (by after_results_simp) (by decide) (by after_results_simp)

/-- `W_ih`, as launched. -/
theorem entry1_wih (c : Dev nD) : V3 m ρ c main_arg6 = (m ((c : Thread nD τ).loc main_arg6)) :=
  entry1_of_untouched m ρ c main_arg6 (by after_results_simp) (by decide) (by after_results_simp)

/-- `W_hh`, as launched. -/
theorem entry1_whh (c : Dev nD) : V3 m ρ c main_arg8 = (m ((c : Thread nD τ).loc main_arg8)) :=
  entry1_of_untouched m ρ c main_arg8 (by after_results_simp) (by decide) (by after_results_simp)

/-- `b_ih` as a row. -/
theorem entry1_bih (c : Dev nD) : V3 m ρ c main_v26 = shapeCast S1x384 (m ((c : Thread nD τ).loc main_arg7)) shapeCasts_S384_S1x384 := by
  show StableHlo.after hostOps1 (W2 m ρ c) (Proc.devRef .tc main_v26) = _
  after_results_simp
  rw [W2_of_ne m ρ c main_arg7 (by decide)]
  show shapeCast S1x384 (StableHlo.after hostOps0 (W0 m ρ c) (Proc.devRef .tc main_arg7)) shapeCasts_S384_S1x384 = _
  after_results_simp <;> rfl

/-- `b_hh` as a row. -/
theorem entry1_bhh (c : Dev nD) : V3 m ρ c main_v27 = shapeCast S1x384 (m ((c : Thread nD τ).loc main_arg9)) shapeCasts_S384_S1x384 := by
  show StableHlo.after hostOps1 (W2 m ρ c) (Proc.devRef .tc main_v27) = _
  after_results_simp
  rw [W2_of_ne m ρ c main_arg9 (by decide)]
  show shapeCast S1x384 (StableHlo.after hostOps0 (W0 m ρ c) (Proc.devRef .tc main_arg9)) shapeCasts_S384_S1x384 = _
  after_results_simp <;> rfl

/-! ## The result -/

/-- After the second launch the result array holds the whole computation of the ten arguments. -/
theorem result_eq (c : Dev nD) : W4 m ρ c (Proc.devRef .tc main_v28)
    = Cert.Spec.whole (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) :=
  (W4_arr m ρ c 6).trans (Cert.KernelIdeal.Val1.final1 (V3 m ρ) c _ _ _ _ _ _ (entry1_agg m ρ c) (entry1_h m ρ c) (entry1_wih m ρ c)
    (entry1_bih m ρ c) (entry1_whh m ρ c) (entry1_bhh m ρ c))

end Cert.KernelIdeal.Val

end
-- ==== Proof.RefSide.lean ====
/-
  The reference's result is the whole computation of its arguments: its run's composed term, read as `Cert.Spec.whole`.
-/
import proofs.«165444_j7275674599837_1_alg».proof.Proof.SpecWhole
import proofs.«165444_j7275674599837_1_alg».proof.Proof.Gen.ReferenceIdeal.Run

set_option maxRecDepth 16384

noncomputable section

namespace Cert.ReferenceIdeal.RefValue

open Idealize.ShloMosaic Idealize.ShloMosaic.TcCoe Idealize.SL.Sem Cert.ReferenceIdeal Cert.ReferenceIdeal.Gen

/-- The term the reference's run ends at is `whole` of the ten argument arrays: the same operations, grouped. -/
theorem res_eq (m : (ℓ : Loc nD τ sig) → Buf (Elt Ideal) ℓ) (c : Dev nD) :
    Cert.ReferenceIdeal.Value.res_main_v70 (F := Ideal) m c
      = Cert.Spec.whole (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7))
          (m ((c.tc : Thread nD τ).loc main_arg8)) (m ((c.tc : Thread nD τ).loc main_arg9)) := by
  unfold Cert.ReferenceIdeal.Value.res_main_v70 Cert.Spec.whole Cert.Spec.gruRef Cert.Spec.sigm Cert.Spec.ones Cert.Spec.gates
    Cert.Spec.msgRef Cert.Spec.hidden Cert.Spec.srcRows Cert.Spec.tgtRows Cert.Spec.tgtIdx Cert.Spec.zeros
  rfl

end Cert.ReferenceIdeal.RefValue

end
-- ==== Proof.lean ====
/-
  A message-passing layer on a graph of 50000 nodes and 625000 edges: for every edge the feature rows of its source and
  its target are gathered, a two-layer network turns them into a message, the messages are added into their target
  nodes, and a gated recurrent cell updates every node from its summed messages and its old state.

  The kernel does the network and the cell in two tiled launches (5000 edges, 2000 nodes a tile), with narrowed matrix
  products into zeros and the first layer as two products over the two halves of `W1`'s columns; the reference does
  each with one product on the joined row. Over the extended reals narrowing is the identity, a product into zeros is
  the plain sum, the sum over 256 joined columns is the sum over the first 128 plus the sum over the last 128, and the
  kernel's logistic is the reference's quotient `1 / (1 + e^(-u))`; a tile's row is the whole array's row. So both
  programs end at the same function `Cert.Spec.whole` of the ten arguments. No finiteness is used.

  The kernel's run: the frame's launch with the result kept (`RunMain.run_main`), each launch's output array as one
  whole-array function (`Val0.final0`, `Val1.final1`), the host operations around them read back (`Val.result_eq`). The
  reference's run is its generated run, regrouped (`RefValue.res_eq`).
-/
import proofs.«165444_j7275674599837_1_alg».proof.Defs
import proofs.«165444_j7275674599837_1_alg».proof.Proof.Gen.Kernel
import proofs.«165444_j7275674599837_1_alg».proof.Proof.Gen.Kernel.Frame
import proofs.«165444_j7275674599837_1_alg».proof.Proof.Gen.KernelIdeal
import proofs.«165444_j7275674599837_1_alg».proof.Proof.Gen.KernelIdeal.Frame
import proofs.«165444_j7275674599837_1_alg».proof.Proof.Gen.ReferenceIdeal
import proofs.«165444_j7275674599837_1_alg».proof.Proof.Gen.ReferenceIdeal.Run
import proofs.«165444_j7275674599837_1_alg».proof.Proof.Gen.Pre_finite_inputs
import proofs.«165444_j7275674599837_1_alg».proof.Proof.RunMain
import proofs.«165444_j7275674599837_1_alg».proof.Proof.HostGlue
import proofs.«165444_j7275674599837_1_alg».proof.Proof.RefSide
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- The idealized kernel's run ends with the result array at the whole computation of the arguments. -/
theorem kernel_run (m : (ℓ : Loc Cert.KernelIdeal.nD Cert.KernelIdeal.τ Cert.KernelIdeal.sig) → Buf (Elt Ideal) ℓ)
    (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩
      (fun r => ∀ c : Dev Cert.KernelIdeal.nD,
        r.2.mem ((c.tc : Thread Cert.KernelIdeal.nD Cert.KernelIdeal.τ).loc Cert.KernelIdeal.main_v28)
          = Cert.Spec.whole (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
        ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
        ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
        ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
        ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
        ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
        ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)) :=
  (θ_run Cert.KernelIdeal.defs _ _).mono
    (fun _ h c => ⟨(h c).1.trans (Cert.KernelIdeal.Val.result_eq m ρ c), (h c).2⟩)
    (Cert.KernelIdeal.RunMain.run_main (F := Ideal) m ρ)

/-- Both idealized programs, from memories that agree on the arguments, end at `Cert.Spec.whole` of them. -/
theorem algebraic : Cert.algebraic_KernelIdeal_ReferenceIdeal := by
  intro m ρ m' ρ' _ hagree
  refine ⟨_, kernel_run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7, e8, e9⟩ := hagree c
  rw [Cert.ReferenceIdeal.RefValue.res_eq, e0, e1, e2, e3, e4, e5, e6, e7, e8, e9]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
